-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S16384 : Shape := ⟨1, ![16384]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_arg3 : IVec S16384 32) (main_v12 : IVec S_ 1) (main_v15 : IVec S_ 1) : IVec S_ 1 :=
  let main_v16 : IVec S_ 1 := andi main_v12 main_v15
  let main_c_6 : IVec S_ 32 := constantI S_ 32 0#32
  let main_v17 : IVec S16384 32 := broadcastInDim S16384 ![] bcast_S_S16384 main_c_6
  let main_v18 : IVec S16384 1 := cmpi .sge main_arg3 main_v17
  let main_c_7 : IVec S_ 1 := constantI S_ 1 1#1
  let main_v19 : IVec S_ 1 := (fun x v => Host.reduce IntOp.andi x v reducesTo_S16384_S_d0 h_S_) main_v18 main_c_7
  let main_v20 : IVec S_ 1 := andi main_v16 main_v19
  let main_c_8 : IVec S_ 32 := constantI S_ 32 1024#32
  let main_v21 : IVec S16384 32 := broadcastInDim S16384 ![] bcast_S_S16384 main_c_8
  let main_v22 : IVec S16384 1 := cmpi .slt main_arg3 main_v21
  let main_c_9 : IVec S_ 1 := constantI S_ 1 1#1
  let main_v23 : IVec S_ 1 := (fun x v => Host.reduce IntOp.andi x v reducesTo_S16384_S_d0 h_S_) main_v22 main_c_9
  let main_v24 : IVec S_ 1 := andi main_v20 main_v23
  main_v24

def fn {F : FTy → Type} [FloatOps F] (main_arg0 : FVec F S2048x4096 .f32) (main_arg1 : FVec F S16384 .f32) (main_arg2 : IVec S16384 32) (main_arg3 : IVec S16384 32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 4096#32
  let main_v13 : IVec S16384 32 := broadcastInDim S16384 ![] bcast_S_S16384 main_c_4
  let main_v14 : IVec S16384 1 := cmpi .slt main_arg2 main_v13
  let main_c_5 : IVec S_ 1 := constantI S_ 1 1#1
  let main_v15 : IVec S_ 1 := (fun x v => Host.reduce IntOp.andi x v reducesTo_S16384_S_d0 h_S_) main_v14 main_c_5
  fn_part1 (F := F) main_arg3 main_v12 main_v15
-- ==== Kernel.lean ====
abbrev S2048x4096 : Shape := ⟨2, ![2048, 4096]⟩
abbrev S16384 : Shape := ⟨1, ![16384]⟩
abbrev S_ : Shape := ⟨0, ![]⟩
abbrev S4096x1024 : Shape := ⟨2, ![4096, 1024]⟩
abbrev S16384x1 : Shape := ⟨2, ![16384, 1]⟩
abbrev S16384x2 : Shape := ⟨2, ![16384, 2]⟩
abbrev S2048x1024 : Shape := ⟨2, ![2048, 1024]⟩
abbrev S1024x1024 : Shape := ⟨2, ![1024, 1024]⟩

abbrev nBuf : Space → Nat
  | .hbm => 26
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S16384, .f32⟩
  | .hbm, ⟨2, _⟩ => ⟨S16384, .i32⟩
  | .hbm, ⟨3, _⟩ => ⟨S16384, .i32⟩
  | .hbm, ⟨4, _⟩ => ⟨S_, .f32⟩
  | .hbm, ⟨5, _⟩ => ⟨S4096x1024, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S16384x1, .i32⟩
  | .hbm, ⟨22, _⟩ => ⟨S16384x2, .i32⟩
  | .hbm, ⟨23, _⟩ => ⟨S4096x1024, .f32⟩
  | .hbm, ⟨24, _⟩ => ⟨S4096x1024, .bf16⟩
  | .hbm, ⟨25, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S4096x1024 : S_.BroadcastsInDim S4096x1024 (![] : Fin 0 → Fin S4096x1024.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  scatter_S4096x1024_S16384x2_S16384_n_01_01_1_wf : ScatterDims.WF S4096x1024 S16384x2 S16384 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x4096.size a
  hwx0_0 : ∀ i : grid0.Coords, EltTy.bits .f32 = 32 ∨ (Rect.block (s := S2048x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S2048x1024.size a
  hwx0_2 : ∀ i : grid0.Coords, EltTy.bits .f32 = 32 ∨ (Rect.block (s := S2048x1024) S1024x1024.size (cc0_transform_2 i) (hinb0_2 i)).WholeWords (EltTy.packing .f32)

variable [Facts₀]

def scatter_S4096x1024_S16384x2_S16384_n_01_01_1 : ScatterDims S4096x1024 S16384x2 S16384 where
  updateWindowDims := []
  insertedWindowDims := [0, 1]
  scatterDimsToOperandDims := [0, 1]
  indexVectorDim := 1
  wf := scatter_S4096x1024_S16384x2_S16384_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x4096 : Shape := ⟨2, ![2048, 4096]⟩
abbrev S16384 : Shape := ⟨1, ![16384]⟩
abbrev S_ : Shape := ⟨0, ![]⟩
abbrev S16384x1 : Shape := ⟨2, ![16384, 1]⟩
abbrev S2048x16384 : Shape := ⟨2, ![2048, 16384]⟩
abbrev S1x16384 : Shape := ⟨2, ![1, 16384]⟩
abbrev S16384x2048 : Shape := ⟨2, ![16384, 2048]⟩
abbrev S1024x2048 : Shape := ⟨2, ![1024, 2048]⟩
abbrev S2048x1024 : Shape := ⟨2, ![2048, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S16384, .f32⟩
  | .hbm, ⟨2, _⟩ => ⟨S16384, .i32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S2048x16384, .f32⟩
  | .hbm, ⟨13, _⟩ => ⟨S1x16384, .f32⟩
  | .hbm, ⟨14, _⟩ => ⟨S2048x16384, .f32⟩
  | .hbm, ⟨15, _⟩ => ⟨S2048x16384, .f32⟩
  | .hbm, ⟨16, _⟩ => ⟨S16384x2048, .f32⟩
  | .hbm, ⟨17, _⟩ => ⟨S_, .f32⟩
  | .hbm, ⟨18, _⟩ => ⟨S1024x2048, .f32⟩
  | .hbm, ⟨19, _⟩ => ⟨S16384x1, .i32⟩
  | .hbm, ⟨20, _⟩ => ⟨S1024x2048, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S1x16384_S2048x16384_0_1 : S1x16384.BroadcastsInDim S2048x16384 (![0, 1] : Fin 2 → Fin S2048x16384.rank)
  transposes_S2048x16384_S16384x2048_1_0 : S2048x16384.Transposes [1, 0] S16384x2048
  bcast_S_S1024x2048 : S_.BroadcastsInDim S1024x2048 (![] : Fin 0 → Fin S1024x2048.rank)
  transposes_S1024x2048_S2048x1024_1_0 : S1024x2048.Transposes [1, 0] S2048x1024
  bcast_S_S2048x1024 : S_.BroadcastsInDim S2048x1024 (![] : Fin 0 → Fin S2048x1024.rank)
  gather_S2048x4096_S16384x1_S2048x16384_0_1_n_n_1_1_20481_wf : GatherDims.WF S2048x4096 S16384x1 S2048x16384 [0] [1] [] [1] [] 1 ![2048, 1]
  scatter_S1024x2048_S16384x1_S16384x2048_1_0_0_1_wf : ScatterDims.WF S1024x2048 S16384x1 S16384x2048 [1] [0] [0] 1

variable [Facts₀]

def gather_S2048x4096_S16384x1_S2048x16384_0_1_n_n_1_1_20481 : GatherDims S2048x4096 S16384x1 S2048x16384 where
  offsetDims := [0]
  collapsedSliceDims := [1]
  operandBatchingDims := []
  startIndicesBatchingDims := []
  startIndexMap := [1]
  indexVectorDim := 1
  sliceSizes := ![2048, 1]
  wf := gather_S2048x4096_S16384x1_S2048x16384_0_1_n_n_1_1_20481_wf
def scatter_S1024x2048_S16384x1_S16384x2048_1_0_0_1 : ScatterDims S1024x2048 S16384x1 S16384x2048 where
  updateWindowDims := [1]
  insertedWindowDims := [0]
  scatterDimsToOperandDims := [0]
  indexVectorDim := 1
  wf := scatter_S1024x2048_S16384x1_S16384x2048_1_0_0_1_wf

class Facts : Prop extends Facts₀ where

variable [Facts]
-- ==== Proof.KernelPieces.lean ====
import proofs.«418522_j57595511439648_3_alg».proof.Proof.Gen.KernelIdeal.Frame
import Idealize.ShloMosaic.Lib.Pipeline.Value

/-!
# What one grid point leaves in the accumulator and in the output block

The body at grid point (i, k) keeps a 1024 × 1024 accumulator between the points of one row of the grid. At k = 0 it
first stores zeros into it; at every k it loads the accumulator, adds the product of the point's x block and W block,
and stores the sum back; at k = 3 it loads the accumulator once more and stores logistic(tanh(·)) of it into the
output block. Every load and store goes through the whole buffer, so what a store leaves is its payload, and a
load after a store reads that payload. Hence, with `upd x w a = a + x·w` (`k0_pay2`), `zero` (`k0_pay1`) and
`act a = logistic (tanh a)` (`k0_pay3`):

* at k = 0 the accumulator ends as `upd x w zero`;
* at k = 1, 2, 3 it ends as `upd x w a`, `a` what the point before left;
* at k = 3 the output block ends as `act (upd x w a)`.

These hold at every instance of the float operations.
-/

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- The offsets of the whole-buffer rectangle are zero on both axes. -/
theorem offsets_zero : (![0, 0] : Fin 2 → Nat) = fun _ => 0 := by
  funext a; match a with | ⟨0, _⟩ => rfl | ⟨1, _⟩ => rfl

/-- k = 0: zeros are stored, read back, and the product of the point's blocks is added. -/
theorem acc_first (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : cond0_0 i) (hc1 : ¬cond0_1 i)
    (x0 : Vec F S1024x1024 .f32) (x1 : Vec F S1024x1024 .bf16) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1024) offsets_zero, View.readCov_unit_zero (S := S1024x1024) _ offsets_zero]
  simp only [View.readAt_eq_ld, harg2.read_unread, harg3.read_unread, View.ld_unit_zero (S := S1024x1024) offsets_zero]

/-- k = 1, 2: the product of the point's blocks is added to what the point before left. -/
theorem acc_middle (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond0_0 i) (hc1 : ¬cond0_1 i)
    (x0 : Vec F S1024x1024 .f32) (x1 : Vec F S1024x1024 .bf16) (xs0 : Vec F S1024x1024 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1024x1024) offsets_zero]
  simp only [View.readAt_eq_ld, harg2.read_unread, harg3.read_unread, harg5.read_unread, View.ld_unit_zero (S := S1024x1024) offsets_zero]

/-- k = 3, the accumulator: as at k = 1, 2. -/
theorem acc_last (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond0_0 i) (hc1 : cond0_1 i)
    (x0 : Vec F S1024x1024 .f32) (x1 : Vec F S1024x1024 .bf16) (xs0 : Vec F S1024x1024 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1024x1024) offsets_zero]
  simp only [View.readAt_eq_ld, harg2.read_unread, harg3.read_unread, harg5.read_unread, View.ld_unit_zero (S := S1024x1024) offsets_zero]

/-- k = 3, the output block: the activation of the finished accumulator. -/
theorem out_last (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond0_0 i) (hc1 : cond0_1 i)
    (x0 : Vec F S1024x1024 .f32) (x1 : Vec F S1024x1024 .bf16) (xs0 : Vec F S1024x1024 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1024x1024) offsets_zero, View.readCov_unit_zero (S := S1024x1024) _ offsets_zero]
  simp only [View.readAt_eq_ld, harg2.read_unread, harg3.read_unread, harg5.read_unread, View.ld_unit_zero (S := S1024x1024) offsets_zero]

end Cert.KernelIdeal.Pieces

end
-- ==== Proof.LibMatmulPlain.lean ====
import Idealize.ShloMosaic.PureOps.Ideal
import Idealize.ShloMosaic.PureOps.Ideal.Laws
import Idealize.ShloMosaic.Lib.ValueIdx
import Mathlib.Algebra.BigOperators.Group.Finset.Basic

/-!
# The plain matrix product of the matrix unit, read at an index

For the dimension numbers of an M×K by K×N product (the left operand contracted on its axis 1, the right on its
axis 0, no batch axes), the matrix unit's product into an accumulator is, at (p, n), the accumulator there plus
the sum over q of lhs(p, q) · rhs(q, n) on the extended reals.
-/

noncomputable section

open scoped BigOperators

namespace Cert.MatmulPlain

open Idealize.ShloMosaic Idealize.ShloMosaic.ValueIdx

variable {M K N : Nat} (D : DotDims ⟨2, ![M, K]⟩ ⟨2, ![K, N]⟩ ⟨2, ![M, N]⟩)

/-- The one contracted extent is the left operand's extent on its axis 1. -/
private theorem contr_size_plain (hlc : D.lhsContracting = [1]) (h0 : 0 < D.contr.rank) :
    D.contr.size ⟨0, h0⟩ = K := by
  have hp : 0 < D.lhsContracting.length := by rw [hlc]; exact Nat.one_pos
  have hsz := D.size_contr 0 hp
  have hK : ∀ (l : List (Fin 2)) (h : 0 < l.length), l = [1] → (⟨2, ![M, K]⟩ : Shape).size l[0] = K := by
    intro l h e; subst e; rfl
  exact hsz.trans (hK _ hp hlc)

/-- On the left operand's axis 0, its one non-contracting axis and the result's first, the left index reads the
    result index's first coordinate. -/
theorem lhsIdx_val_zero (hln : D.lhsNonContracting = [0]) (hlb : D.lhsBatch = [])
    (j : (⟨2, ![M, N]⟩ : Shape).Idx) (k : D.contr.Idx) :
    (D.lhsIdx j k (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln])

/-- On the left operand's axis 1, the contracted one, the left index reads the contraction position's coordinate. -/
theorem lhsIdx_val_one (hlc : D.lhsContracting = [1]) (j : (⟨2, ![M, N]⟩ : Shape).Idx) (k : D.contr.Idx) :
    (D.lhsIdx j k (1 : Fin 2)).val = (k ⟨0, by rw [D.rank_contr, hlc]; exact Nat.one_pos⟩).val :=
  D.lhsIdx_val_of_single hlc j k

/-- On the right operand's axis 0, the contracted one, the right index reads the contraction position's coordinate. -/
theorem rhsIdx_val_zero (hrc : D.rhsContracting = [0]) (j : (⟨2, ![M, N]⟩ : Shape).Idx) (k : D.contr.Idx) :
    (D.rhsIdx j k (0 : Fin 2)).val = (k ⟨0, by rw [D.rank_contr, ← D.length_contracting, hrc]; exact Nat.one_pos⟩).val :=
  D.rhsIdx_val_of_single hrc j k

/-- On the right operand's axis 1, its one non-contracting axis and the result's second (after the left operand's
    one), the right index reads the result index's second coordinate. -/
theorem rhsIdx_val_one (hln : D.lhsNonContracting = [0]) (hrn : D.rhsNonContracting = [1]) (hlb : D.lhsBatch = [])
    (hrb : D.rhsBatch = []) (j : (⟨2, ![M, N]⟩ : Shape).Idx) (k : D.contr.Idx) :
    (D.rhsIdx j k (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln, hrn])

/-- THE PRODUCT READ AT (p, n): the accumulator's entry plus the sum over the contracted position q of
    lhs(p, q) · rhs(q, n). -/
theorem matmul_plain_apply (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul D prec lhs rhs acc (ix2 p n) = acc (ix2 p n) + ∑ q : Fin K, lhs (ix2 p q) * rhs (ix2 q n) := by
  have hr : D.contr.rank = 1 := by rw [DotDims.rank_contr, hlc]; rfl
  have hs : D.contr.size ⟨0, by omega⟩ = K := contr_size_plain D hlc (by omega)
  rw [Ideal.matmul_apply]
  congr 1
  -- the contraction index set is its one coordinate's range: re-index the sum through that bijection
  rw [← Equiv.sum_comp (contrEquiv1 D K hr hs).symm]
  refine Finset.sum_congr rfl fun q _ => ?_
  have hl : D.lhsIdx (ix2 p n) ((contrEquiv1 D K hr hs).symm q) = ix2 p q := by
    funext a
    match a with
    | ⟨0, _⟩ => exact Fin.ext (lhsIdx_val_zero D hln hlb (ix2 p n) _)
    | ⟨1, _⟩ => exact Fin.ext ((lhsIdx_val_one D hlc (ix2 p n) _).trans (contrEquiv1_symm_val D K hr hs q))
  have hrr : D.rhsIdx (ix2 p n) ((contrEquiv1 D K hr hs).symm q) = ix2 q n := by
    funext a
    match a with
    | ⟨0, _⟩ => exact Fin.ext ((rhsIdx_val_zero D hrc (ix2 p n) _).trans (contrEquiv1_symm_val D K hr hs q))
    | ⟨1, _⟩ => exact Fin.ext (rhsIdx_val_one D hln hrn hlb hrb (ix2 p n) _)
  rw [hl, hrr]

end Cert.MatmulPlain

end
-- ==== Proof.EdgeSum.lean ====
import Idealize.ShloMosaic.PureOps.Ideal
import Mathlib.Algebra.BigOperators.Group.Finset.Basic
import Mathlib.Algebra.BigOperators.Fin

/-!
# A weighted sum over edges, grouped by source or not

For finite reals, summing over the sources k the product of x(k) with the total weight of the selected edges whose
source is k is the same as summing x(source e) · w(e) over the selected edges e: the product distributes over each
inner sum (which is where finiteness is used: on the extended reals x · (a + b) = x · a + x · b can fail at the
infinities), and the double sum is regrouped edge by edge. Also: a sum over 4096 positions as four consecutive
blocks of 1024.
-/

noncomputable section

open scoped BigOperators

namespace Cert.EdgeSum

/-- The coercion of a finite sum of reals is the sum of the coercions. -/
private theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Grouping by source, over the reals: the selected edges are split into the fibres of the source map; on the
fibre over k the factor x(source e) is x(k), and x(k) distributes over the fibre's sum. -/
private theorem sum_mul_table_real {K E : Nat} (x : Fin K → ℝ) (v : Fin E → ℝ) (S : Fin E → Fin K)
    (P : Fin E → Prop) [DecidablePred P] :
    ∑ k : Fin K, x k * (∑ e ∈ Finset.univ.filter (fun e => S e = k ∧ P e), v e)
      = ∑ e ∈ Finset.univ.filter (fun e => P e), x (S e) * v e := by
  rw [← Finset.sum_fiberwise_of_maps_to (s := Finset.univ.filter (fun e => P e)) (t := Finset.univ) (g := S)
    (fun _ _ => Finset.mem_univ _)]
  refine Finset.sum_congr rfl (fun k _ => ?_)
  rw [Finset.mul_sum, Finset.filter_filter]
  refine Finset.sum_congr ?_ ?_
  · ext e
    simp only [Finset.mem_filter, Finset.mem_univ, true_and]
    exact and_comm
  · intro e he
    rw [(Finset.mem_filter.mp he).2.2]

/-- Grouping by source: ∑ₖ x(k) · (∑ over selected edges e with source k of w(e)) = ∑ over selected edges of x(source e) · w(e). -/
theorem sum_mul_table {K E : Nat} (xr : Fin K → EReal) (w : Fin E → EReal) (S : Fin E → Fin K) (P : Fin E → Prop)
    [DecidablePred P] (hx : ∀ k, ∃ r : ℝ, xr k = (r : EReal)) (hw : ∀ e, ∃ r : ℝ, w e = (r : EReal)) :
    ∑ k : Fin K, xr k * (∑ e ∈ Finset.univ.filter (fun e => S e = k ∧ P e), w e)
      = ∑ e ∈ Finset.univ.filter (fun e => P e), xr (S e) * w e := by
  -- both families are coercions of real families
  choose x hx using hx
  choose v hv using hw
  obtain rfl : xr = fun k => (x k : EReal) := funext hx
  obtain rfl : w = fun e => (v e : EReal) := funext hv
  -- each side is the coercion of the corresponding real sum
  have hL : ∑ k : Fin K, (x k : EReal) * (∑ e ∈ Finset.univ.filter (fun e => S e = k ∧ P e), (v e : EReal))
      = ((∑ k : Fin K, x k * (∑ e ∈ Finset.univ.filter (fun e => S e = k ∧ P e), v e) : ℝ) : EReal) := by
    rw [coe_sum]
    refine Finset.sum_congr rfl (fun k _ => ?_)
    rw [EReal.coe_mul, coe_sum]
  have hR : ∑ e ∈ Finset.univ.filter (fun e => P e), (x (S e) : EReal) * (v e : EReal)
      = ((∑ e ∈ Finset.univ.filter (fun e => P e), x (S e) * v e : ℝ) : EReal) := by
    rw [coe_sum]
    refine Finset.sum_congr rfl (fun e _ => ?_)
    rw [EReal.coe_mul]
  rw [hL, hR, sum_mul_table_real]

/-- Block j (of four) of a sum over 4096 positions: the positions 1024·j, …, 1024·j + 1023. -/
def blk (f : Fin 4096 → EReal) (j : Fin 4) : EReal :=
  ∑ q : Fin 1024, f ⟨1024 * j.val + q.val, by have := j.isLt; have := q.isLt; omega⟩

/-- A sum over 4096 positions is the sum of its four blocks of 1024, in order. -/
theorem sum_eq_blocks (f : Fin 4096 → EReal) : ∑ k : Fin 4096, f k = blk f 0 + blk f 1 + blk f 2 + blk f 3 := by
  -- 4096 = 3072 + 1024, 3072 = 2048 + 1024, 2048 = 1024 + 1024: split off the last block three times
  have h1 := Fin.sum_univ_add (a := 3072) (b := 1024) f
  have h2 := Fin.sum_univ_add (a := 2048) (b := 1024) (fun i : Fin 3072 => f (Fin.castAdd 1024 i))
  have h3 := Fin.sum_univ_add (a := 1024) (b := 1024)
    (fun i : Fin 2048 => f (Fin.castAdd 1024 (Fin.castAdd 1024 i)))
  refine h1.trans ?_
  rw [h2, h3]
  -- the four pieces are the four blocks: the position of q in piece j is 1024·j + q
  unfold blk
  rfl

end Cert.EdgeSum

end
-- ==== Proof.KernelValue.lean ====
import proofs.«418522_j57595511439648_3_alg».proof.Proof.Gen.KernelIdeal.Value
import proofs.«418522_j57595511439648_3_alg».proof.Proof.KernelPieces
import proofs.«418522_j57595511439648_3_alg».proof.Proof.LibMatmulPlain
import proofs.«418522_j57595511439648_3_alg».proof.Proof.EdgeSum
import Idealize.ShloMosaic.Lib.Pipeline.Value
import Idealize.ShloMosaic.Lib.ValueIdx
import Idealize.ShloMosaic.PureOps.Ideal.Laws

/-!
# The kernel's result array, as one function of x and of the table W

The grid is 2 × 4: point t = 4·i + k works on rows 1024·i … 1024·i + 1023 of x and on columns (of x) and rows (of W)
1024·k … 1024·k + 1023. Along a grid row i the accumulator goes through

  a₀ = 0 + x_{i,0}·W₀,  a₁ = a₀ + x_{i,1}·W₁,  a₂ = a₁ + x_{i,2}·W₂,  a₃ = a₂ + x_{i,3}·W₃

(x_{i,k}·W_k the 1024 × 1024 product of the point's blocks), and the last point writes logistic(tanh(a₃)) to rows
1024·i … of the result. Entry (p, n) of a₃ is the sum over the four blocks k of ∑_q x(1024 i + p, 1024 k + q)·W(1024 k + q, n),
that is ∑ over all 4096 positions c of x(1024 i + p, c)·W(c, n): addition on the extended reals is associative and
commutative, so the blocked sum is the whole sum. The two flushing points (t = 3, 7) cover the 2048 rows of the result.
-/

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## The body's three payloads at an index, on the extended reals -/

/-- The accumulator's update at (p, n): the old entry plus ∑_q X(p, q)·W(q, n). (A change of float format is the
    identity on the extended reals, and the product starts from a zero accumulator.) -/
theorem upd_apply (X : Vec Ideal S1024x1024 .f32) (W : Vec Ideal S1024x1024 .bf16) (a : Vec Ideal S1024x1024 .f32)
    (p n : Fin 1024) :
    k0_pay2 (F := Ideal) X W a (ix2 p n) = a (ix2 p n) + ∑ q : Fin 1024, X (ix2 p q) * W (ix2 q n) := by
  unfold k0_pay2
  rw [shapeCast_self, shapeCast_self]
  refine (addf_apply (s := S1024x1024) (φ := .f32) a _ (ix2 p n)).trans ?_
  refine congrArg (a (ix2 p n) + ·) ?_
  refine (Cert.MatmulPlain.matmul_plain_apply dot_S1024x1024_S1024x1024_S1024x1024_1_0_0_1_n_n rfl rfl rfl rfl rfl rfl none
    (truncf (F := Ideal) .bf16 X bitsLt_bf16_f32) W (constant (F := Ideal) S1024x1024 .f32 0x00000000#32) p n).trans ?_
  show Ideal.ofBits .f32 0x00000000#32 + (∑ q : Fin 1024, X (ix2 p q) * W (ix2 q n)) = _
  rw [Ideal.ofBits_zero_f32, zero_add]

/-- The reset stores zero everywhere. -/
theorem zero_apply (j : S1024x1024.Idx) : k0_pay1 (F := Ideal) j = 0 := by
  unfold k0_pay1
  rw [shapeCast_self]
  show Ideal.ofBits .f32 0x00000000#32 = 0
  exact Ideal.ofBits_zero_f32

/-- The activation at an index: logistic(tanh(·)) of the entry. -/
theorem act_apply (a : Vec Ideal S1024x1024 .f32) (j : S1024x1024.Idx) :
    k0_pay3 (F := Ideal) a j = Ideal.logistic (Ideal.tanh (a j)) := rfl

variable (m : (ℓ : Loc nD τ sig) → Buf (Elt Ideal) ℓ)

/-! ## The arrays the region finds, and the blocks of them a point reads -/

/-- x as the region finds it (no host operation writes it). -/
abbrev xarr (c : Dev nD) : Vec Ideal S2048x4096 .f32 := V m c main_arg0
/-- The table W as the region finds it (the host operations before the region computed it). -/
abbrev warr (c : Dev nD) : Vec Ideal S4096x1024 .bf16 := V m c main_v15
/-- The x block of point t. -/
abbrev xblk (c : Dev nD) (t : Fin cfg0.N) : Vec Ideal S1024x1024 .f32 := iblk m c 0 t
/-- The W block of point t. -/
abbrev wblk (c : Dev nD) (t : Fin cfg0.N) : Vec Ideal S1024x1024 .bf16 := iblk m c 1 t

/-- The block indices of the three windows at point t = 4·i + k: (i, k) for x, (k, 0) for W, (i, 0) for the result. -/
theorem index_facts : ∀ t : Fin cfg0.N,
    win0_0.index t 0 = t.val / 4 ∧ win0_0.index t 1 = t.val % 4
    ∧ win0_1.index t 0 = t.val % 4 ∧ win0_1.index t 1 = 0
    ∧ win0_2.index t 0 = t.val / 4 ∧ win0_2.index t 1 = 0 :=
  (by decide +kernel : ∀ t : Fin grid0.N,
    win0_0.index t 0 = t.val / 4 ∧ win0_0.index t 1 = t.val % 4
    ∧ win0_1.index t 0 = t.val % 4 ∧ win0_1.index t 1 = 0
    ∧ win0_2.index t 0 = t.val / 4 ∧ win0_2.index t 1 = 0)

/-- Entry (p, q) of the x block of point t is x at row 1024·(t / 4) + p and column 1024·(t % 4) + q. -/
theorem xblk_apply (c : Dev nD) (t : Fin cfg0.N) (p q : Fin 1024) (r : Fin 2048) (s : Fin 4096)
    (hr : r.val = 1024 * (t.val / 4) + p.val) (hs : s.val = 1024 * (t.val % 4) + q.val) :
    xblk m c t (ix2 p q) = xarr m c (ix2 r s) := by
  obtain ⟨h00, h01, -⟩ := index_facts t
  show V m c main_arg0 (((cfg0.win 0).blk t).view.emb (ix2 p q)) = V m c main_arg0 (ix2 r s)
  refine congrArg (V m c main_arg0) (funext fun a => Fin.ext ?_)
  match a with
  | ⟨0, _⟩ => show win0_0.index t 0 * 1024 + 1 * p.val = r.val; rw [h00, hr]; omega
  | ⟨1, _⟩ => show win0_0.index t 1 * 1024 + 1 * q.val = s.val; rw [h01, hs]; omega

/-- Entry (q, n) of the W block of point t is W at row 1024·(t % 4) + q and column n. -/
theorem wblk_apply (c : Dev nD) (t : Fin cfg0.N) (q n : Fin 1024) (s : Fin 4096)
    (hs : s.val = 1024 * (t.val % 4) + q.val) :
    wblk m c t (ix2 q n) = warr m c (ix2 s n) := by
  obtain ⟨-, -, h10, h11, -⟩ := index_facts t
  show V m c main_v15 (((cfg0.win 1).blk t).view.emb (ix2 q n)) = V m c main_v15 (ix2 s n)
  refine congrArg (V m c main_v15) (funext fun a => Fin.ext ?_)
  match a with
  | ⟨0, _⟩ => show win0_1.index t 0 * 1024 + 1 * q.val = s.val; rw [h10, hs]; omega
  | ⟨1, _⟩ => show win0_1.index t 1 * 1024 + 1 * n.val = n.val; rw [h11]; omega

/-! ## The accumulator along a grid row -/

/-- After a point with k = 0 the accumulator is the update of zero by the point's blocks. -/
theorem acc_at_first (c : Dev nD) (t : Fin cfg0.N) (h0 : t.val % 4 = 0) :
    (outsAt0 m c t.val t.isLt).2 = k0_pay2 (xblk m c t) (wblk m c t) (k0_pay1 (F := Ideal)) := by
  have h1 : ¬t.val % 4 = 3 := by omega
  rw [outsAt0_A m c t h0 h1]
  dsimp only
  exact Pieces.acc_first (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- After a point with k = 1, 2 it is the update of what the point before left. -/
theorem acc_at_middle (c : Dev nD) (t : Fin cfg0.N) (h0 : ¬t.val % 4 = 0) (h1 : ¬t.val % 4 = 3) :
    (outsAt0 m c t.val t.isLt).2
      = k0_pay2 (xblk m c t) (wblk m c t) (outsAt0 m c (t.val - 1) (Nat.lt_of_le_of_lt (Nat.sub_le _ _) t.isLt)).2 := by
  rw [outsAt0_B m c t h0 h1]
  dsimp only
  exact Pieces.acc_middle (F := Ideal) c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- After a point with k = 3 the output block is the activation of the update of what the point before left. -/
theorem out_at_last (c : Dev nD) (t : Fin cfg0.N) (h1 : t.val % 4 = 3) :
    (outsAt0 m c t.val t.isLt).1
      = k0_pay3 (k0_pay2 (xblk m c t) (wblk m c t) (outsAt0 m c (t.val - 1) (Nat.lt_of_le_of_lt (Nat.sub_le _ _) t.isLt)).2) := by
  have h0 : ¬t.val % 4 = 0 := by omega
  rw [outsAt0_C m c t h0 h1]
  dsimp only
  exact Pieces.out_last (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- The same contents named at an equal position. -/
theorem outsAt0_congr (c : Dev nD) {n n' : ℕ} (e : n = n') (h : n < cfg0.N) (h' : n' < cfg0.N) :
    outsAt0 m c n h = outsAt0 m c n' h' := by
  subst e; rfl

/-- The point j steps before t (used for j ≤ 3 at the last point of a grid row). -/
abbrev back (t : Fin cfg0.N) (j : ℕ) : Fin cfg0.N := ⟨t.val - j, Nat.lt_of_le_of_lt (Nat.sub_le _ _) t.isLt⟩

/-- THE OUTPUT BLOCK at the last point t of a grid row: the activation of the four updates, of the blocks of the
    points t − 3, t − 2, t − 1, t in this order, starting from zero. -/
theorem out_block (c : Dev nD) (t : Fin cfg0.N) (h : t.val % 4 = 3) :
    (outsAt0 m c t.val t.isLt).1
      = k0_pay3 (k0_pay2 (xblk m c t) (wblk m c t)
          (k0_pay2 (xblk m c (back t 1)) (wblk m c (back t 1))
            (k0_pay2 (xblk m c (back t 2)) (wblk m c (back t 2))
              (k0_pay2 (xblk m c (back t 3)) (wblk m c (back t 3)) (k0_pay1 (F := Ideal)))))) := by
  rw [out_at_last m c t h]
  refine congrArg (fun a => k0_pay3 (k0_pay2 (xblk m c t) (wblk m c t) a)) ?_
  refine (acc_at_middle m c (back t 1) (by show ¬(t.val - 1) % 4 = 0; omega) (by show ¬(t.val - 1) % 4 = 3; omega)).trans ?_
  refine congrArg (fun a => k0_pay2 (xblk m c (back t 1)) (wblk m c (back t 1)) a) ?_
  refine (congrArg Prod.snd (outsAt0_congr m c (show (back t 1).val - 1 = (back t 2).val by show t.val - 1 - 1 = t.val - 2; omega)
    _ (back t 2).isLt)).trans ?_
  refine (acc_at_middle m c (back t 2) (by show ¬(t.val - 2) % 4 = 0; omega) (by show ¬(t.val - 2) % 4 = 3; omega)).trans ?_
  refine congrArg (fun a => k0_pay2 (xblk m c (back t 2)) (wblk m c (back t 2)) a) ?_
  refine (congrArg Prod.snd (outsAt0_congr m c (show (back t 2).val - 1 = (back t 3).val by show t.val - 2 - 1 = t.val - 3; omega)
    _ (back t 3).isLt)).trans ?_
  exact acc_at_first m c (back t 3) (by show (t.val - 3) % 4 = 0; omega)

/-! ## The result as one function of x and W -/

/-- THE KERNEL'S RESULT: at (b, n), logistic(tanh(∑ over the 4096 positions c of X(b, c)·W(c, n))). -/
def G (X : Vec Ideal S2048x4096 .f32) (W : Vec Ideal S4096x1024 .bf16) : Vec Ideal S2048x1024 .f32 :=
  fun i => Ideal.logistic (Ideal.tanh (∑ k : Fin 4096, X (ix2 (i 0) k) * W (ix2 k (i 1))))

/-- Block j of the whole sum at (b, n) is the product sum of the point with k = j on the grid row of b. -/
theorem blk_eq (c : Dev nD) (u : Fin cfg0.N) (j : Fin 4) (hj : u.val % 4 = j.val) (p n : Fin 1024) (b : Fin 2048)
    (hb : b.val = 1024 * (u.val / 4) + p.val) :
    (∑ q : Fin 1024, xblk m c u (ix2 p q) * wblk m c u (ix2 q n))
      = Cert.EdgeSum.blk (fun k : Fin 4096 => xarr m c (ix2 b k) * warr m c (ix2 k n)) j := by
  unfold Cert.EdgeSum.blk
  refine Finset.sum_congr rfl fun q _ => ?_
  rw [xblk_apply m c u p q b ⟨1024 * j.val + q.val, by have := j.isLt; have := q.isLt; omega⟩ hb (by show 1024 * j.val + q.val = _; rw [hj]),
    wblk_apply m c u q n ⟨1024 * j.val + q.val, by have := j.isLt; have := q.isLt; omega⟩ (by show 1024 * j.val + q.val = _; rw [hj])]

/-- THE OUTPUT BLOCK AT AN INDEX: entry j of the block of the last point t of a grid row is G at the array index i with
    i₀ = 1024·(t / 4) + j₀ and i₁ = j₁. -/
theorem out_block_apply (c : Dev nD) (t : Fin cfg0.N) (h : t.val % 4 = 3) (j : S1024x1024.Idx) (i : S2048x1024.Idx)
    (h0 : (i 0).val = 1024 * (t.val / 4) + (j 0).val) (h1 : (i 1).val = (j 1).val) :
    (outsAt0 m c t.val t.isLt).1 j = G (xarr m c) (warr m c) i := by
  obtain ⟨p, n, rfl⟩ : ∃ (p n : Fin 1024), j = ix2 p n := ⟨j 0, j 1, eq_ix2 j⟩
  obtain ⟨b, n', rfl⟩ : ∃ (b : Fin 2048) (n' : Fin 1024), i = ix2 b n' := ⟨i 0, i 1, eq_ix2 i⟩
  have hb : b.val = 1024 * (t.val / 4) + p.val := h0
  obtain rfl : n = n' := (Fin.ext h1).symm
  rw [out_block m c t h, act_apply, upd_apply, upd_apply, upd_apply, upd_apply, zero_apply]
  show Ideal.logistic (Ideal.tanh _) = Ideal.logistic (Ideal.tanh (∑ k : Fin 4096, xarr m c (ix2 b k) * warr m c (ix2 k n)))
  refine congrArg (fun s => Ideal.logistic (Ideal.tanh s)) ?_
  rw [Cert.EdgeSum.sum_eq_blocks, zero_add,
    blk_eq m c (back t 3) 0 (by show (t.val - 3) % 4 = 0; omega) p n b (by show b.val = 1024 * ((t.val - 3) / 4) + p.val; omega),
    blk_eq m c (back t 2) 1 (by show (t.val - 2) % 4 = 1; omega) p n b (by show b.val = 1024 * ((t.val - 2) / 4) + p.val; omega),
    blk_eq m c (back t 1) 2 (by show (t.val - 1) % 4 = 2; omega) p n b (by show b.val = 1024 * ((t.val - 1) / 4) + p.val; omega),
    blk_eq m c t 3 (by show t.val % 4 = 3; exact h) p n b hb]

/-! ## The array after the run -/

/-- WHAT A FLUSHING POINT WRITES BACK is its block of G of the arrays the region finds. -/
theorem flushed_eq (c : Dev nD) (t : Fin cfg0.N) (hf : (cfg0.win 2).flush t = true) :
    (dats m 0 c).flushed 2 t = ((cfg0.win 2).blk t).view.read (Elt Ideal) (G (xarr m c) (warr m c)) := by
  have h3 : t.val % 4 = 3 := (flush0_2 t).mp hf
  obtain ⟨-, -, -, -, h20, h21⟩ := index_facts t
  show (cfg0.win 2).cut (grid0.coords t) ((dats m 0 c).after 2 t) = _
  rw [after0_2]
  funext j
  show (outsAt0 m c t.val t.isLt).1 j = G (xarr m c) (warr m c) (((cfg0.win 2).blk t).view.emb j)
  refine out_block_apply m c t h3 j (((cfg0.win 2).blk t).view.emb j) ?_ ?_
  · show win0_2.index t 0 * 1024 + 1 * (j 0).val = 1024 * (t.val / 4) + (j 0).val
    rw [h20]; omega
  · show win0_2.index t 1 * 1024 + 1 * (j 1).val = (j 1).val
    rw [h21]; omega

/-- An index of the result array is in point t's block iff each coordinate is in the block's range on its axis. -/
theorem mem_blk (t : Fin cfg0.N) (i : S2048x1024.Idx) :
    i ∈ ((cfg0.win 2).blk t).view.set
      ↔ ∀ a : Fin 2, win0_2.index t a * S1024x1024.size a ≤ (i a).val
          ∧ (i a).val < win0_2.index t a * S1024x1024.size a + S1024x1024.size a := by
  show i ∈ ((View.whole main_v16).slice (win0_2.rect t)).set ↔ _
  rw [View.set_slice_whole, Rect.mem_set_unit]
  exact Iff.rfl

/-- Every index of the result array is in the block of a flushing point: row b is written at the last point of grid
    row b / 1024. -/
theorem cover (i : S2048x1024.Idx) :
    ∃ t : Fin cfg0.N, (cfg0.win 2).flush t = true ∧ i ∈ ((cfg0.win 2).blk t).view.set := by
  have hi0 : (i 0).val < 2048 := (i 0).isLt
  have hi1 : (i 1).val < 1024 := (i 1).isLt
  have hN : cfg0.N = 8 := N_0
  let t : Fin cfg0.N := ⟨4 * ((i 0).val / 1024) + 3, by rw [hN]; omega⟩
  have ht : t.val = 4 * ((i 0).val / 1024) + 3 := rfl
  obtain ⟨-, -, -, -, h20, h21⟩ := index_facts t
  refine ⟨t, (flush0_2 t).mpr (by rw [ht]; omega), ?_⟩
  rw [mem_blk]
  intro a
  match a with
  | ⟨0, _⟩ =>
    show win0_2.index t 0 * 1024 ≤ (i 0).val ∧ (i 0).val < win0_2.index t 0 * 1024 + 1024
    rw [h20, ht]; omega
  | ⟨1, _⟩ =>
    show win0_2.index t 1 * 1024 ≤ (i 1).val ∧ (i 1).val < win0_2.index t 1 * 1024 + 1024
    rw [h21]; omega

/-- THE RESULT ARRAY after the run is G of the arrays the region finds. -/
theorem final (c : Dev nD) : (dats m 0 c).arrAt 2 cfg0.N = G (xarr m c) (warr m c) :=
  (dats m 0 c).arrAt_eq_of_cover 2 (G (xarr m c) (warr m c)) (fun t hf => flushed_eq m c t hf) cover

end Cert.KernelIdeal.KValue

end
-- ==== Proof.LibScatterPairs.lean ====
import Idealize.ShloMosaic.PureOps.Ideal
import Idealize.ShloMosaic.Lib.ValueIdx
import Mathlib.Algebra.BigOperators.Group.Finset.Basic

/-!
# Scatter-add of single entries at index pairs into a rank-2 table, read at an index

A scatter with an additive body whose E updates are scalars, update e addressed by the pair of start indices in
row e of an [E × 2] array: the first names the table's row, the second its column, both read as signed integers.
An update whose pair leaves the table is dropped. At (k, n) the result is the operand plus the sum of the updates
whose pair is (k, n).
-/

noncomputable section

open scoped BigOperators

namespace Cert.ScatterPairs

open Idealize.ShloMosaic Idealize.ShloMosaic.ValueIdx

variable {N C E w : Nat} (d : ScatterDims ⟨2, ![N, C]⟩ ⟨2, ![E, 2]⟩ ⟨1, ![E]⟩)

/-- A rank-1 index has one axis: its coordinate there is the index's one coordinate, whatever the axis is called. -/
private theorem ix1_val {n0 : Nat} (a : Fin n0) (X : Fin 1) : ((ix1 a) X).val = a.val :=
  match X with
  | ⟨0, _⟩ => rfl

/-- The start-indices index update e reads component m of its start pair at: row e, column m. (The updates' one axis
    is a scatter axis and reads the pairs' axis 0; the index vector lies along the pairs' axis 1.) -/
theorem siIdx_pairs (hivd : d.indexVectorDim = 1) (e : Fin E) (c : Fin d.scatterDimsToOperandDims.length)
    (m : Fin 2) (hc : c.val = m.val) :
    d.siIdx (ix1 e) c = ix2 e m := by
  funext b
  match b with
  | ⟨0, _⟩ =>
    unfold ScatterDims.siIdx
    rw [dif_neg (by rw [hivd]; simp)]
    unfold ScatterDims.siCoord
    apply Fin.ext
    simp only [Fin.val_cast]
    exact ix1_val e _
  | ⟨1, _⟩ =>
    unfold ScatterDims.siIdx
    rw [dif_pos (by rw [hivd])]
    apply Fin.ext
    exact hc

/-- On the operand's axis 0 the window of update e starts at the first component of its pair, read signed … -/
theorem start_zero (hsd : d.scatterDimsToOperandDims = [0, 1]) (hivd : d.indexVectorDim = 1)
    (idx : IVec ⟨2, ![E, 2]⟩ w) (e : Fin E) :
    d.start (ix1 e) idx (0 : Fin 2) = (idx (ix2 e (0 : Fin 2))).toInt := by
  unfold ScatterDims.start
  rw [dif_pos (show (0 : Fin 2) ∈ d.scatterDimsToOperandDims by rw [hsd]; simp),
    siIdx_pairs d hivd e _ (0 : Fin 2) (by show List.idxOf (0 : Fin 2) d.scatterDimsToOperandDims = 0; rw [hsd]; rfl)]

/-- … and on axis 1 at the second component. -/
theorem start_one (hsd : d.scatterDimsToOperandDims = [0, 1]) (hivd : d.indexVectorDim = 1)
    (idx : IVec ⟨2, ![E, 2]⟩ w) (e : Fin E) :
    d.start (ix1 e) idx (1 : Fin 2) = (idx (ix2 e (1 : Fin 2))).toInt := by
  unfold ScatterDims.start
  rw [dif_pos (show (1 : Fin 2) ∈ d.scatterDimsToOperandDims by rw [hsd]; simp),
    siIdx_pairs d hivd e _ (1 : Fin 2) (by show List.idxOf (1 : Fin 2) d.scatterDimsToOperandDims = 1; rw [hsd]; rfl)]

/-- Both operand axes are inserted: the window coordinate is 0 on each. -/
theorem window_eq_zero (hiw : d.insertedWindowDims = [0, 1]) (e : Fin E) (a : Fin 2) :
    d.window (ix1 e) a = 0 := by
  unfold ScatterDims.window
  rw [dif_neg]
  intro h
  have h2 := (List.mem_filter.1 h).2
  rw [hiw] at h2
  revert h2
  match a with
  | ⟨0, _⟩ => simp
  | ⟨1, _⟩ => simp

/-- WHERE AN UPDATE LANDS. Update e lands on (k, n) exactly when its pair, read signed, is (k, n); a pair with a
    component that is negative or past the table's extent on its axis lands nowhere. -/
theorem resultIdx?_pairs (hiw : d.insertedWindowDims = [0, 1])
    (hsd : d.scatterDimsToOperandDims = [0, 1]) (hivd : d.indexVectorDim = 1)
    (idx : IVec ⟨2, ![E, 2]⟩ w) (e : Fin E) (k : Fin N) (n : Fin C) :
    d.resultIdx? (ix1 e) idx = some (ix2 k n)
      ↔ (idx (ix2 e (0 : Fin 2))).toInt = (k.val : ℤ) ∧ (idx (ix2 e (1 : Fin 2))).toInt = (n.val : ℤ) := by
  have hs0 := start_zero d hsd hivd idx e
  have hs1 := start_one d hsd hivd idx e
  have hw0 := window_eq_zero d hiw e (0 : Fin 2)
  have hw1 := window_eq_zero d hiw e (1 : Fin 2)
  have hk := k.isLt
  have hn := n.isLt
  unfold ScatterDims.resultIdx?
  constructor
  · intro h
    split at h
    · next hc =>
      have h' := Option.some.inj h
      have h0 : (d.start (ix1 e) idx (0 : Fin 2) + (d.window (ix1 e) (0 : Fin 2) : ℤ)).toNat = k.val :=
        congrArg (fun f : (⟨2, ![N, C]⟩ : Shape).Idx => (f (0 : Fin 2)).val) h'
      have h1 : (d.start (ix1 e) idx (1 : Fin 2) + (d.window (ix1 e) (1 : Fin 2) : ℤ)).toNat = n.val :=
        congrArg (fun f : (⟨2, ![N, C]⟩ : Shape).Idx => (f (1 : Fin 2)).val) h'
      have hc0 := (hc (0 : Fin 2)).1
      have hc1 := (hc (1 : Fin 2)).1
      rw [hs0, hw0] at h0 hc0
      rw [hs1, hw1] at h1 hc1
      exact ⟨by omega, by omega⟩
    · exact absurd h (by simp)
  · rintro ⟨h0, h1⟩
    have hc : ∀ a, 0 ≤ d.start (ix1 e) idx a + (d.window (ix1 e) a : ℤ)
        ∧ d.start (ix1 e) idx a + (d.window (ix1 e) a : ℤ) < ((⟨2, ![N, C]⟩ : Shape).size a : ℤ) := by
      refine Fin.forall_fin_two.2 ⟨?_, ?_⟩
      · rw [hs0, hw0]
        show 0 ≤ _ ∧ _ < (N : ℤ)
        omega
      · rw [hs1, hw1]
        show 0 ≤ _ ∧ _ < (C : ℤ)
        omega
    rw [dif_pos hc]
    congr 1
    refine funext (Fin.forall_fin_two.2 ⟨?_, ?_⟩)
    · apply Fin.ext
      show (d.start (ix1 e) idx (0 : Fin 2) + (d.window (ix1 e) (0 : Fin 2) : ℤ)).toNat = k.val
      rw [hs0, hw0]; omega
    · apply Fin.ext
      show (d.start (ix1 e) idx (1 : Fin 2) + (d.window (ix1 e) (1 : Fin 2) : ℤ)).toNat = n.val
      rw [hs1, hw1]; omega

/-- THE SCATTER READ AT (k, n): the operand there plus the updates whose index pair, read signed, is (k, n). -/
theorem hostScatterAdd_pairs (huw : d.updateWindowDims = []) (hiw : d.insertedWindowDims = [0, 1])
    (hsd : d.scatterDimsToOperandDims = [0, 1]) (hivd : d.indexVectorDim = 1)
    (x : (⟨2, ![N, C]⟩ : Shape).Idx → EReal) (idx : IVec ⟨2, ![E, 2]⟩ w) (upd : (⟨1, ![E]⟩ : Shape).Idx → EReal)
    (k : Fin N) (n : Fin C) :
    Ideal.hostScatterAdd d x idx upd (ix2 k n)
      = x (ix2 k n) + ∑ e ∈ Finset.univ.filter (fun e : Fin E =>
          (idx (ix2 e (0 : Fin 2))).toInt = (k.val : ℤ) ∧ (idx (ix2 e (1 : Fin 2))).toInt = (n.val : ℤ)), upd (ix1 e) := by
  unfold Ideal.hostScatterAdd
  congr 1
  -- every update index is its one coordinate e; it is in the left sum exactly when the pair of e is (k, n)
  have hrow : ∀ j : (⟨1, ![E]⟩ : Shape).Idx,
      d.resultIdx? j idx = some (ix2 k n)
        ↔ (idx (ix2 (j 0) (0 : Fin 2))).toInt = (k.val : ℤ) ∧ (idx (ix2 (j 0) (1 : Fin 2))).toInt = (n.val : ℤ) := by
    intro j
    obtain ⟨a, rfl⟩ : ∃ a, j = ix1 a := ⟨_, eq_ix1 j⟩
    exact resultIdx?_pairs d hiw hsd hivd idx a k n
  refine Finset.sum_nbij' (fun j => j 0) (fun e => ix1 e) ?_ ?_ ?_ ?_ ?_
  · intro j hj
    exact Finset.mem_filter.2 ⟨Finset.mem_univ _, (hrow j).1 (Finset.mem_filter.1 hj).2⟩
  · intro e he
    exact Finset.mem_filter.2 ⟨Finset.mem_univ _, (hrow (ix1 e)).2 (Finset.mem_filter.1 he).2⟩
  · intro j _
    exact (eq_ix1 j).symm
  · intro e _
    rfl
  · intro j _
    exact congrArg upd (eq_ix1 j)

end Cert.ScatterPairs

end
-- ==== Proof.KernelTable.lean ====
import proofs.«418522_j57595511439648_3_alg».proof.Proof.KernelValue
import proofs.«418522_j57595511439648_3_alg».proof.Proof.LibScatterPairs
import Idealize.ShloMosaic.Lib.Pipeline.Value
import Idealize.ShloMosaic.Lib.StableHlo.Run
import Idealize.ShloMosaic.Lib.StableHlo.Predicate
import Idealize.ShloMosaic.PureOps.Ideal.Laws

/-!
# The table W the region finds

Before the region the host operations build W: a [4096 × 1024] table of zeros into which every edge e adds its weight
at the pair (source e, destination e), a negative source first wrapped by +4096 and a negative destination by +1024,
an edge whose pair is outside the table dropped; the table is then cast to another float format, which is the identity
on the extended reals. With nonnegative sources and destinations the wraps do nothing, so

  W(k, n) = ∑ over the edges e with source k and destination n of weight e.
-/

set_option maxRecDepth 16384

noncomputable section

open scoped BigOperators

namespace Cert.KernelIdeal.Table

open Cert.KernelIdeal Cert.KernelIdeal.Gen Cert.KernelIdeal.KValue
open Idealize.ShloMosaic Idealize.ShloMosaic.TcCoe Idealize.ShloMosaic.ValueIdx Idealize.ShloMosaic.StableHlo
open Idealize.ShloMosaic.StableHlo.Predicate (ixP)
open Idealize.SL Idealize.SL.Sem

/-- An index array with its negative entries wrapped by +N. -/
abbrev wrapBy (N : BitVec 32) (A : IVec S16384 32) : IVec S16384 32 :=
  select (cmpi .slt A (broadcastInDim S16384 ![] bcast_S_S16384 (constantI S_ 32 0#32)))
    (addi A (broadcastInDim S16384 ![] bcast_S_S16384 (constantI S_ 32 N))) A

/-- The [16384 × 2] array of (wrapped source, wrapped destination) pairs. -/
abbrev pairs (A2 A3 : IVec S16384 32) : IVec S16384x2 32 :=
  concatenate S16384x2 1
    [⟨S16384x1, broadcastInDim S16384x1 ![0] bcast_S16384_S16384x1_0 (wrapBy 4096#32 A2)⟩,
     ⟨S16384x1, broadcastInDim S16384x1 ![0] bcast_S16384_S16384x1_0 (wrapBy 1024#32 A3)⟩]
    concatenates_S16384x1_S16384x1_S16384x2_d1

/-- The table as the host operations compute it from the weights and the two index arrays. -/
def table (A1 : FVec Ideal S16384 .f32) (A2 A3 : IVec S16384 32) : FVec Ideal S4096x1024 .bf16 :=
  truncf .bf16
    (Host.scatterAdd scatter_S4096x1024_S16384x2_S16384_n_01_01_1
      (broadcastInDim S4096x1024 ![] bcast_S_S4096x1024 (constant (F := Ideal) S_ .f32 0x00000000#32))
      (pairs A2 A3) A1)
    bitsLt_bf16_f32

variable (m : (ℓ : Loc nD τ sig) → Buf (Elt Ideal) ℓ)

set_option maxHeartbeats 2000000 in
/-- The region finds W at the host operations' term of the launch contents of the weights and the index arrays. -/
theorem warr_eq (c : Dev nD) :
    warr m c = table (m ((c : Thread nD τ).loc main_arg1)) (m ((c : Thread nD τ).loc main_arg2))
      (m ((c : Thread nD τ).loc main_arg3)) := by
  have e : (V m c main_v15 : S4096x1024.Idx → EReal)
      = truncf .bf16
          (Host.scatterAdd scatter_S4096x1024_S16384x2_S16384_n_01_01_1
            (broadcastInDim S4096x1024 ![] bcast_S_S4096x1024 (constant (F := Ideal) S_ .f32 0x00000000#32))
            (concatenate S16384x2 1
              [⟨S16384x1, broadcastInDim S16384x1 ![0] bcast_S16384_S16384x1_0
                (select (cmpi .slt (m ((c : Thread nD τ).loc main_arg2)) (broadcastInDim S16384 ![] bcast_S_S16384 (constantI S_ 32 0#32)))
                  (addi (m ((c : Thread nD τ).loc main_arg2)) (broadcastInDim S16384 ![] bcast_S_S16384 (constantI S_ 32 4096#32)))
                  (m ((c : Thread nD τ).loc main_arg2)))⟩,
               ⟨S16384x1, broadcastInDim S16384x1 ![0] bcast_S16384_S16384x1_0
                (select (cmpi .slt (m ((c : Thread nD τ).loc main_arg3)) (broadcastInDim S16384 ![] bcast_S_S16384 (constantI S_ 32 0#32)))
                  (addi (m ((c : Thread nD τ).loc main_arg3)) (broadcastInDim S16384 ![] bcast_S_S16384 (constantI S_ 32 1024#32)))
                  (m ((c : Thread nD τ).loc main_arg3)))⟩]
              concatenates_S16384x1_S16384x1_S16384x2_d1)
            (m ((c : Thread nD τ).loc main_arg1)))
          bitsLt_bf16_f32 := by
    dsimp only [Gen.V, Gen.hostOps0]
    after_results <;> rfl
  exact e

/-- The region finds x as launched. -/
theorem xarr_eq (c : Dev nD) : xarr m c = m ((c : Thread nD τ).loc main_arg0) := V_main_arg0 m c

/-- A nonnegative word is not below zero in the signed order. -/
theorem slt_zero_of_nonneg (v : BitVec 32) (h : 0 ≤ v.toInt) : IntOp.cmpi .slt v 0#32 = 0#1 := by
  show BitVec.ofBool (v.slt 0#32) = 0#1
  have hf : v.slt 0#32 = false := by
    simp only [BitVec.slt, BitVec.toInt_zero, decide_eq_false_iff_not, not_lt]; exact h
  rw [hf]; rfl

/-- The wrap leaves a nonnegative entry as it is. -/
theorem wrapBy_apply (N : BitVec 32) (A : IVec S16384 32) (e : Fin 16384) (h : 0 ≤ (A (ix1 e)).toInt) :
    wrapBy N A (ix1 e) = A (ix1 e) := by
  show Scalar.select (IntOp.cmpi .slt (A (ix1 e)) (broadcastInDim S16384 ![] bcast_S_S16384 (constantI S_ 32 0#32) (ix1 e))) _ _ = _
  rw [show broadcastInDim S16384 ![] bcast_S_S16384 (constantI S_ 32 0#32) (ix1 e) = 0#32 from rfl, slt_zero_of_nonneg _ h]
  rfl

/-- A vector as a column, read at (e, 0). -/
theorem col_apply (v : IVec S16384 32) (e : Fin 16384) :
    broadcastInDim S16384x1 ![0] bcast_S16384_S16384x1_0 v (ixP e) = v (ix1 e) := by
  refine broadcastInDim_apply _ bcast_S16384_S16384x1_0 v (ixP e) (ix1 e) (fun a => ?_)
  match a with
  | ⟨0, _⟩ => show e.val = if (16384 : Nat) = 1 then 0 else e.val; rw [if_neg (by decide)]

/-- The pair of edge e: first component the wrapped source … -/
theorem pairs_fst (A2 A3 : IVec S16384 32) (e : Fin 16384) :
    pairs A2 A3 (ix2 e (0 : Fin 2)) = wrapBy 4096#32 A2 (ix1 e) := by
  refine (concatenate_pair_apply_left (t := S16384x2) (s₁ := S16384x1) (s₂ := S16384x1) (1 : Fin 2) _ _ concatenates_S16384x1_S16384x1_S16384x2_d1 (ix2 e (0 : Fin 2)) rfl (ixP e)
    (fun b => ?_)).trans (col_apply _ e)
  match b with
  | ⟨0, _⟩ => rfl
  | ⟨1, _⟩ => rfl

/-- … second component the wrapped destination. -/
theorem pairs_snd (A2 A3 : IVec S16384 32) (e : Fin 16384) :
    pairs A2 A3 (ix2 e (1 : Fin 2)) = wrapBy 1024#32 A3 (ix1 e) := by
  refine (concatenate_pair_apply_right (t := S16384x2) (s₁ := S16384x1) (s₂ := S16384x1) (1 : Fin 2) _ _ concatenates_S16384x1_S16384x1_S16384x2_d1 (ix2 e (1 : Fin 2)) rfl rfl (ixP e)
    (fun b hb => ?_) rfl).trans (col_apply _ e)
  match b, hb with
  | ⟨0, _⟩, _ => rfl
  | ⟨1, _⟩, hb => exact absurd rfl hb

/-- THE TABLE AT (k, n), for nonnegative sources and destinations: the total weight of the edges from k to n. -/
theorem table_apply (A1 : FVec Ideal S16384 .f32) (A2 A3 : IVec S16384 32)
    (hS : ∀ e : Fin 16384, 0 ≤ (A2 (ix1 e)).toInt) (hD : ∀ e : Fin 16384, 0 ≤ (A3 (ix1 e)).toInt)
    (k : Fin 4096) (n : Fin 1024) :
    table A1 A2 A3 (ix2 k n)
      = ∑ e ∈ Finset.univ.filter (fun e : Fin 16384 =>
          (A2 (ix1 e)).toInt = (k.val : ℤ) ∧ (A3 (ix1 e)).toInt = (n.val : ℤ)), A1 (ix1 e) := by
  unfold table
  show Ideal.hostScatterAdd scatter_S4096x1024_S16384x2_S16384_n_01_01_1
    (broadcastInDim S4096x1024 ![] bcast_S_S4096x1024 (constant (F := Ideal) S_ .f32 0x00000000#32)) (pairs A2 A3) A1 (ix2 k n) = _
  rw [Cert.ScatterPairs.hostScatterAdd_pairs scatter_S4096x1024_S16384x2_S16384_n_01_01_1 rfl rfl rfl rfl]
  rw [show broadcastInDim S4096x1024 ![] bcast_S_S4096x1024 (constant (F := Ideal) S_ .f32 0x00000000#32) (ix2 k n)
    = Ideal.ofBits .f32 0x00000000#32 from rfl, Ideal.ofBits_zero_f32, zero_add]
  refine Finset.sum_congr ?_ (fun _ _ => rfl)
  ext e
  simp only [Finset.mem_filter, Finset.mem_univ, true_and]
  rw [pairs_fst, pairs_snd, wrapBy_apply _ A2 e (hS e), wrapBy_apply _ A3 e (hD e)]

end Cert.KernelIdeal.Table

end
-- ==== Proof.LibSegment.lean ====
import Idealize.ShloMosaic.PureOps.Ideal
import Idealize.ShloMosaic.Lib.ValueIdx
import Idealize.ShloMosaic.Lib.StableHlo.Predicate
import Mathlib.Algebra.BigOperators.Group.Finset.Basic

/-!
# Row-wise scatter-add and row gather, read at an index

Two index-level reads of the host operations on a rank-2 table whose ROWS are addressed by an [E × 1] column of
start indices.

* A scatter with an additive body whose updates are whole rows: update row e is added into the operand row named
  by the e-th start index, read as a signed integer; a row whose start index is negative or past the last row is
  dropped. At (n, k) the result is the operand plus the sum, over the update rows whose start index is n, of
  their k-th entry.
* A gather of whole rows: result row e is the operand row named by the e-th start index, read signed and clamped
  into the table.
-/

noncomputable section

open scoped BigOperators

namespace Cert.Segment

open Idealize.ShloMosaic Idealize.ShloMosaic.ValueIdx
open Idealize.ShloMosaic.StableHlo.Predicate (ixP)

/-! ## The scatter: where update (e, k') lands -/

section Scatter

variable {N C E w : Nat} (d : ScatterDims ⟨2, ![N, C]⟩ ⟨2, ![E, 1]⟩ ⟨2, ![E, C]⟩)

/-- A coordinate of a rank-2 index on an axis known to be the first. -/
private theorem ix2_val_of_eq_zero {n0 n1 : Nat} (a : Fin n0) (b : Fin n1) (X : Fin 2) (hX : X = 0) :
    ((ix2 a b) X).val = a.val := by
  subst hX; rfl

/-- A coordinate of a rank-2 index on an axis known to be the second. -/
private theorem ix2_val_of_eq_one {n0 n1 : Nat} (a : Fin n0) (b : Fin n1) (X : Fin 2) (hX : X = 1) :
    ((ix2 a b) X).val = b.val := by
  subst hX; rfl

/-- An axis of a rank-2 shape that is not the second is the first. -/
private theorem fin2_eq_zero {X : Fin 2} (h : X ≠ 1) : X = 0 :=
  match X, h with
  | ⟨0, _⟩, _ => rfl
  | ⟨1, _⟩, h => absurd rfl h

/-- With the window on the updates' axis 1, the only update scatter axis is axis 0. -/
private theorem uScatter_eq_zero (huw : d.updateWindowDims = [1]) (X : Fin 2) (hX : X ∈ d.uScatter) : X = 0 := by
  have h2 := (List.mem_filter.1 hX).2
  rw [huw] at h2
  exact fin2_eq_zero (by simpa using h2)

/-- The start-indices index update (e, k') reads its one start component at: row e of the column. -/
theorem siIdx_rows (hsd : d.scatterDimsToOperandDims = [0]) (huw : d.updateWindowDims = [1]) (hivd : d.indexVectorDim = 1)
    (e : Fin E) (k' : Fin C) (c : Fin d.scatterDimsToOperandDims.length) :
    d.siIdx (ix2 e k') c = ixP e := by
  funext b
  match b with
  | ⟨0, _⟩ =>
    -- the one update scatter axis is axis 0 of the updates (axis 1 is the window axis); it reads the column's axis 0
    unfold ScatterDims.siIdx
    rw [dif_neg (by rw [hivd]; simp)]
    unfold ScatterDims.siCoord
    apply Fin.ext
    simp only [Fin.val_cast]
    refine ix2_val_of_eq_zero e k' _ ?_
    exact uScatter_eq_zero d huw _ (List.getElem_mem _)
  | ⟨1, _⟩ =>
    unfold ScatterDims.siIdx
    rw [dif_pos (by rw [hivd])]
    apply Fin.ext
    show c.val = 0
    have hl : d.scatterDimsToOperandDims.length = 1 := by rw [hsd]; rfl
    have := c.isLt
    omega

/-- On the operand's axis 0 the window of update (e, k') starts at the start index of row e, read signed … -/
theorem start_zero (hsd : d.scatterDimsToOperandDims = [0]) (huw : d.updateWindowDims = [1]) (hivd : d.indexVectorDim = 1)
    (idx : IVec ⟨2, ![E, 1]⟩ w) (e : Fin E) (k' : Fin C) :
    d.start (ix2 e k') idx (0 : Fin 2) = (idx (ixP e)).toInt := by
  unfold ScatterDims.start
  rw [dif_pos (show (0 : Fin 2) ∈ d.scatterDimsToOperandDims by rw [hsd]; exact List.mem_singleton.mpr rfl),
    siIdx_rows d hsd huw hivd]

/-- … and on axis 1, which the start index does not name, at 0. -/
theorem start_one (hsd : d.scatterDimsToOperandDims = [0]) (idx : IVec ⟨2, ![E, 1]⟩ w) (e : Fin E) (k' : Fin C) :
    d.start (ix2 e k') idx (1 : Fin 2) = 0 := by
  unfold ScatterDims.start
  rw [dif_neg (by rw [hsd]; simp)]

/-- The operand's axis 0 is inserted: the window coordinate there is 0 … -/
theorem window_zero (hiw : d.insertedWindowDims = [0]) (e : Fin E) (k' : Fin C) :
    d.window (ix2 e k') (0 : Fin 2) = 0 := by
  unfold ScatterDims.window
  rw [dif_neg]
  intro h
  have h2 := (List.mem_filter.1 h).2
  rw [hiw] at h2
  simp at h2

/-- … and on axis 1, the one kept axis, it is the update's column k'. -/
theorem window_one (huw : d.updateWindowDims = [1]) (hiw : d.insertedWindowDims = [0]) (e : Fin E) (k' : Fin C) :
    d.window (ix2 e k') (1 : Fin 2) = k'.val := by
  unfold ScatterDims.window
  have hmem : (1 : Fin 2) ∈ d.sKept := List.mem_filter.2 ⟨List.mem_finRange _, by rw [hiw]; simp⟩
  rw [dif_pos hmem]
  refine ix2_val_of_eq_one e k' _ ?_
  have hall : ∀ X ∈ d.updateWindowDims, X = 1 := by
    intro X hX; rw [huw] at hX; exact List.mem_singleton.1 hX
  exact hall _ (List.getElem_mem _)

/-- WHERE AN UPDATE LANDS. Update (e, k') lands on (n, k) exactly when the start index of row e, read signed, is n and
    k' = k; with a start index that is negative or at least N it lands nowhere. -/
theorem resultIdx?_rows (huw : d.updateWindowDims = [1]) (hiw : d.insertedWindowDims = [0])
    (hsd : d.scatterDimsToOperandDims = [0]) (hivd : d.indexVectorDim = 1)
    (idx : IVec ⟨2, ![E, 1]⟩ w) (e : Fin E) (k' : Fin C) (n : Fin N) (k : Fin C) :
    d.resultIdx? (ix2 e k') idx = some (ix2 n k) ↔ (idx (ixP e)).toInt = (n.val : ℤ) ∧ k' = k := by
  have hs0 := start_zero d hsd huw hivd idx e k'
  have hs1 := start_one d hsd idx e k'
  have hw0 := window_zero d hiw e k'
  have hw1 := window_one d huw hiw e k'
  have hn := n.isLt
  have hk' := k'.isLt
  unfold ScatterDims.resultIdx?
  constructor
  · intro h
    split at h
    · next hc =>
      have h' := Option.some.inj h
      have h0 : (d.start (ix2 e k') idx (0 : Fin 2) + (d.window (ix2 e k') (0 : Fin 2) : ℤ)).toNat = n.val :=
        congrArg (fun f : (⟨2, ![N, C]⟩ : Shape).Idx => (f (0 : Fin 2)).val) h'
      have h1 : (d.start (ix2 e k') idx (1 : Fin 2) + (d.window (ix2 e k') (1 : Fin 2) : ℤ)).toNat = k.val :=
        congrArg (fun f : (⟨2, ![N, C]⟩ : Shape).Idx => (f (1 : Fin 2)).val) h'
      have hc0 := (hc (0 : Fin 2)).1
      rw [hs0, hw0] at h0 hc0
      rw [hs1, hw1] at h1
      exact ⟨by omega, Fin.ext (by omega)⟩
    · exact absurd h (by simp)
  · rintro ⟨h0, rfl⟩
    have hc : ∀ a, 0 ≤ d.start (ix2 e k') idx a + (d.window (ix2 e k') a : ℤ)
        ∧ d.start (ix2 e k') idx a + (d.window (ix2 e k') a : ℤ) < ((⟨2, ![N, C]⟩ : Shape).size a : ℤ) := by
      refine Fin.forall_fin_two.2 ⟨?_, ?_⟩
      · rw [hs0, hw0]
        show 0 ≤ _ ∧ _ < (N : ℤ)
        omega
      · rw [hs1, hw1]
        show 0 ≤ _ ∧ _ < (C : ℤ)
        omega
    rw [dif_pos hc]
    congr 1
    refine funext (Fin.forall_fin_two.2 ⟨?_, ?_⟩)
    · apply Fin.ext
      show (d.start (ix2 e k') idx (0 : Fin 2) + (d.window (ix2 e k') (0 : Fin 2) : ℤ)).toNat = n.val
      rw [hs0, hw0]; omega
    · apply Fin.ext
      show (d.start (ix2 e k') idx (1 : Fin 2) + (d.window (ix2 e k') (1 : Fin 2) : ℤ)).toNat = k'.val
      rw [hs1, hw1]; omega

/-- THE SCATTER READ AT (n, k): the operand there plus the k-th entries of the update rows whose start index, read
    signed, is n. (The update indices landing on (n, k) are the (e, k) with start index n: one per such row e.) -/
theorem hostScatterAdd_rows (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ixP e)).toInt = (n.val : ℤ)), upd (ix2 e k) := by
  unfold Ideal.hostScatterAdd
  congr 1
  -- every update index is (e, k'); it is in the left sum exactly when its start index is n and k' = k
  have hrow : ∀ j : (⟨2, ![E, C]⟩ : Shape).Idx,
      d.resultIdx? j idx = some (ix2 n k) ↔ (idx (ixP (j 0))).toInt = (n.val : ℤ) ∧ j 1 = k := by
    intro j
    obtain ⟨a, b, rfl⟩ : ∃ a b, j = ix2 a b := ⟨_, _, eq_ix2 j⟩
    exact resultIdx?_rows d huw hiw hsd hivd idx a b n k
  refine Finset.sum_nbij' (fun j => j 0) (fun e => ix2 e k) ?_ ?_ ?_ ?_ ?_
  · intro j hj
    exact Finset.mem_filter.2 ⟨Finset.mem_univ _, ((hrow j).1 (Finset.mem_filter.1 hj).2).1⟩
  · intro e he
    exact Finset.mem_filter.2 ⟨Finset.mem_univ _, (hrow (ix2 e k)).2 ⟨(Finset.mem_filter.1 he).2, rfl⟩⟩
  · intro j hj
    have hk := ((hrow j).1 (Finset.mem_filter.1 hj).2).2
    obtain ⟨a, b, rfl⟩ : ∃ a b, j = ix2 a b := ⟨_, _, eq_ix2 j⟩
    have hb : b = k := hk
    subst hb; rfl
  · intro e _
    rfl
  · intro j hj
    have hk := ((hrow j).1 (Finset.mem_filter.1 hj).2).2
    obtain ⟨a, b, rfl⟩ : ∃ a b, j = ix2 a b := ⟨_, _, eq_ix2 j⟩
    have hb : b = k := hk
    subst hb; rfl

end Scatter

/-! ## The gather of rows -/

section Gather

variable {α : Type} {N C E w : Nat} (d : GatherDims ⟨2, ![N, C]⟩ ⟨2, ![E, 1]⟩ ⟨2, ![E, C]⟩)

/-- With the offset on the result's axis 1, the only batch axis of the result is axis 0. -/
private theorem batchDims_eq_zero (hoff : d.offsetDims = [1]) (X : Fin 2) (hX : X ∈ d.batchDims) : X = 0 := by
  have h2 := (List.mem_filter.1 hX).2
  rw [hoff] at h2
  exact fin2_eq_zero (by simpa using h2)

/-- The start-indices index result (e, k) reads its one start component at: row e of the column. -/
theorem gather_siIdx_rows (hoff : d.offsetDims = [1]) (hsim : d.startIndexMap = [0]) (hivd : d.indexVectorDim = 1)
    (e : Fin E) (k : Fin C) (c : Fin d.startIndexMap.length) :
    d.siIdx (ix2 e k) c = ixP e := by
  funext b
  match b with
  | ⟨0, _⟩ =>
    -- the result's one batch axis is its axis 0 (axis 1 is the offset axis); it reads the column's axis 0
    unfold GatherDims.siIdx
    rw [dif_neg (by rw [hivd]; simp)]
    unfold GatherDims.siCoord
    apply Fin.ext
    simp only [Fin.val_cast]
    exact ix2_val_of_eq_zero e k _ (batchDims_eq_zero d hoff _ (List.getElem_mem _))
  | ⟨1, _⟩ =>
    unfold GatherDims.siIdx
    rw [dif_pos (by rw [hivd])]
    apply Fin.ext
    show c.val = 0
    have hl : d.startIndexMap.length = 1 := by rw [hsim]; rfl
    have := c.isLt
    omega

/-- THE GATHER READ AT (e, k): the operand's row named by the start index of e, read signed and clamped into
    [0, N − 1], at column k. (Axis 0 of the operand is collapsed and start-indexed, with slice size 1 there, so the
    row is the clamped start alone; axis 1 is not start-indexed, so the column is the result's offset coordinate.) -/
theorem gather_rows (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (k : Fin C) (hN : 0 < N) :
    Host.gather d x idx (ix2 e k) = x (ix2 ⟨min (idx (ixP e)).toInt.toNat (N - 1), by omega⟩ k) := by
  unfold Host.gather
  congr 1
  have hb : ∀ a : Fin 2, a ∉ d.operandBatchingDims := fun a => by rw [hob]; exact List.not_mem_nil
  refine funext (Fin.forall_fin_two.2 ⟨?_, ?_⟩)
  · -- the row
    apply Fin.ext
    show d.start (ix2 e k) idx (0 : Fin 2) + d.batchCoord (ix2 e k) (0 : Fin 2) + d.offCoord (ix2 e k) (0 : Fin 2)
      = min (idx (ixP e)).toInt.toNat (N - 1)
    have hk0 : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk0, Nat.add_zero]
    unfold GatherDims.start
    rw [dif_pos hm, gather_siIdx_rows d hoff hsim hivd, hsl]
    rfl
  · -- the column
    apply Fin.ext
    show d.start (ix2 e k) idx (1 : Fin 2) + d.batchCoord (ix2 e k) (1 : Fin 2) + d.offCoord (ix2 e k) (1 : Fin 2) = k.val
    have hk1 : (1 : Fin 2) ∈ d.sKept := by rw [GatherDims.mem_sKept, hcoll, hob]; simp
    have hs1 : d.start (ix2 e k) idx (1 : Fin 2) = 0 := by
      unfold GatherDims.start
      rw [dif_neg (by rw [hsim]; simp)]
    rw [hs1, GatherDims.batchCoord_eq_zero _ _ _ (hb 1), Nat.zero_add]
    unfold GatherDims.offCoord
    rw [dif_pos hk1]
    refine ix2_val_of_eq_one e k _ ?_
    have hall : ∀ X ∈ d.offsetDims, X = 1 := by
      intro X hX; rw [hoff] at hX; exact List.mem_singleton.1 hX
    exact hall _ (List.getElem_mem _)

end Gather

end Cert.Segment

end
-- ==== Proof.LibGatherCols.lean ====
import Idealize.ShloMosaic.PureOps.Ideal
import Idealize.ShloMosaic.Lib.ValueIdx
import Idealize.ShloMosaic.Lib.StableHlo.Predicate

/-!
# Gather of whole columns of a rank-2 table, read at an index

The gather that jnp's `x[:, idx]` lowers to: the operand is [B × K], the start indices an [E × 1] column, the
result [B × E]. Result column e is the operand's column named by the e-th start index, read as a signed integer
and clamped into the table.
-/

noncomputable section

namespace Cert.GatherCols

open Idealize.ShloMosaic Idealize.ShloMosaic.ValueIdx
open Idealize.ShloMosaic.StableHlo.Predicate (ixP)

variable {α : Type} {B K E w : Nat} (d : GatherDims ⟨2, ![B, K]⟩ ⟨2, ![E, 1]⟩ ⟨2, ![B, E]⟩)

/-- A coordinate of a rank-2 index on an axis known to be the first. -/
private theorem ix2_val_of_eq_zero {n0 n1 : Nat} (a : Fin n0) (b : Fin n1) (X : Fin 2) (hX : X = 0) :
    ((ix2 a b) X).val = a.val := by
  subst hX; rfl

/-- A coordinate of a rank-2 index on an axis known to be the second. -/
private theorem ix2_val_of_eq_one {n0 n1 : Nat} (a : Fin n0) (b : Fin n1) (X : Fin 2) (hX : X = 1) :
    ((ix2 a b) X).val = b.val := by
  subst hX; rfl

/-- An axis of a rank-2 shape that is not the first is the second. -/
private theorem fin2_eq_one {X : Fin 2} (h : X ≠ 0) : X = 1 :=
  match X, h with
  | ⟨0, _⟩, h => absurd rfl h
  | ⟨1, _⟩, _ => rfl

/-- With the offset on the result's axis 0, the only batch axis of the result is axis 1. -/
private theorem batchDims_eq_one (hoff : d.offsetDims = [0]) (X : Fin 2) (hX : X ∈ d.batchDims) : X = 1 := by
  have h2 := (List.mem_filter.1 hX).2
  rw [hoff] at h2
  exact fin2_eq_one (by simpa using h2)

/-- The start-indices index result (b, e) reads its one start component at: row e of the column. -/
theorem gather_siIdx_cols (hoff : d.offsetDims = [0]) (hsim : d.startIndexMap = [1]) (hivd : d.indexVectorDim = 1)
    (b : Fin B) (e : Fin E) (c : Fin d.startIndexMap.length) :
    d.siIdx (ix2 b e) c = ixP e := by
  funext a
  match a with
  | ⟨0, _⟩ =>
    -- the result's one batch axis is its axis 1 (axis 0 is the offset axis); it reads the column's axis 0
    unfold GatherDims.siIdx
    rw [dif_neg (by rw [hivd]; simp)]
    unfold GatherDims.siCoord
    apply Fin.ext
    simp only [Fin.val_cast]
    exact ix2_val_of_eq_one b e _ (batchDims_eq_one d hoff _ (List.getElem_mem _))
  | ⟨1, _⟩ =>
    unfold GatherDims.siIdx
    rw [dif_pos (by rw [hivd])]
    apply Fin.ext
    show c.val = 0
    have hl : d.startIndexMap.length = 1 := by rw [hsim]; rfl
    have := c.isLt
    omega

/-- THE GATHER READ AT (b, e): the operand at row b and at the column named by the start index of e, read signed and
    clamped into [0, K − 1]. (Axis 1 of the operand is collapsed and start-indexed, with slice size 1 there, so the
    column is the clamped start alone; axis 0 is not start-indexed, so the row is the result's offset coordinate.) -/
theorem gather_cols (hoff : d.offsetDims = [0]) (hcoll : d.collapsedSliceDims = [1]) (hob : d.operandBatchingDims = [])
    (hsim : d.startIndexMap = [1]) (hivd : d.indexVectorDim = 1)
    (x : (⟨2, ![B, K]⟩ : Shape).Idx → α) (idx : IVec ⟨2, ![E, 1]⟩ w) (b : Fin B) (e : Fin E) (hK : 0 < K) :
    Host.gather d x idx (ix2 b e) = x (ix2 b ⟨min (idx (ixP e)).toInt.toNat (K - 1), by omega⟩) := by
  unfold Host.gather
  congr 1
  have hb : ∀ a : Fin 2, a ∉ d.operandBatchingDims := fun a => by rw [hob]; exact List.not_mem_nil
  refine funext (Fin.forall_fin_two.2 ⟨?_, ?_⟩)
  · -- the row
    apply Fin.ext
    show d.start (ix2 b e) idx (0 : Fin 2) + d.batchCoord (ix2 b e) (0 : Fin 2) + d.offCoord (ix2 b e) (0 : Fin 2) = b.val
    have hk0 : (0 : Fin 2) ∈ d.sKept := by rw [GatherDims.mem_sKept, hcoll, hob]; simp
    have hs0 : d.start (ix2 b e) idx (0 : Fin 2) = 0 := by
      unfold GatherDims.start
      rw [dif_neg (by rw [hsim]; simp)]
    rw [hs0, GatherDims.batchCoord_eq_zero _ _ _ (hb 0), Nat.zero_add]
    unfold GatherDims.offCoord
    rw [dif_pos hk0]
    refine ix2_val_of_eq_zero b e _ ?_
    have hall : ∀ X ∈ d.offsetDims, X = 0 := by
      intro X hX; rw [hoff] at hX; exact List.mem_singleton.1 hX
    exact hall _ (List.getElem_mem _)
  · -- the column
    apply Fin.ext
    show d.start (ix2 b e) idx (1 : Fin 2) + d.batchCoord (ix2 b e) (1 : Fin 2) + d.offCoord (ix2 b e) (1 : Fin 2)
      = min (idx (ixP e)).toInt.toNat (K - 1)
    have hk1 : (1 : Fin 2) ∉ d.sKept := by rw [GatherDims.mem_sKept, hcoll]; simp
    have hm : (1 : Fin 2) ∈ d.startIndexMap := by rw [hsim]; exact List.mem_singleton.mpr rfl
    have hsl : d.sliceSizes (1 : Fin 2) = 1 := d.slice_collapsed 1 (by rw [hcoll]; exact List.mem_singleton.mpr rfl)
    rw [GatherDims.batchCoord_eq_zero _ _ _ (hb 1), GatherDims.offCoord_eq_zero _ _ _ hk1, Nat.add_zero]
    unfold GatherDims.start
    rw [dif_pos hm, gather_siIdx_cols d hoff hsim hivd, hsl]
    rfl

end Cert.GatherCols

end
-- ==== Proof.RefValue.lean ====
import proofs.«418522_j57595511439648_3_alg».proof.Proof.Gen.ReferenceIdeal.Read
import proofs.«418522_j57595511439648_3_alg».proof.Proof.LibSegment
import proofs.«418522_j57595511439648_3_alg».proof.Proof.LibGatherCols
import Idealize.ShloMosaic.Lib.ValueIdx
import Idealize.ShloMosaic.Lib.StableHlo.Predicate
import Idealize.ShloMosaic.PureOps.Ideal.Laws

/-!
# The reference's result at an index

The reference gathers, for every edge e, the column of x named by the edge's source (a negative source first wrapped by
+4096, then the start index clamped into the table), multiplies it by the edge's weight, and adds the products of
the edges with destination n into row n of a [1024 × 2048] table that starts at zero (an edge whose destination is
not a row of the table is dropped). The result at (b, n) is 1 / (1 + exp(−tanh(·))) of that table's entry (n, b),
and 1 / (1 + exp(−y)) is the logistic function of y. With nonnegative sources the wrap does nothing, so

  reference(b, n) = logistic(tanh(∑ over the edges e with destination n of x(b, clamp(source e)) · weight e)).
-/

noncomputable section

open scoped BigOperators

namespace Cert.ReferenceIdeal.RefValue

open Cert.ReferenceIdeal Cert.ReferenceIdeal.Gen Cert.ReferenceIdeal.Read
open Idealize.ShloMosaic Idealize.ShloMosaic.ValueIdx
open Idealize.ShloMosaic.StableHlo.Predicate (ixP)

/-- The word 0x3F800000 is the number 1. -/
theorem one_f32 : Ideal.ofBits .f32 0x3F800000#32 = 1 := by
  simp [Ideal.ofBits, Ideal.ieee, -EReal.coe_mul]; norm_num

/-- A nonnegative word is not below zero in the signed order. -/
theorem slt_zero_of_nonneg (v : BitVec 32) (h : 0 ≤ v.toInt) : IntOp.cmpi .slt v 0#32 = 0#1 := by
  show BitVec.ofBool (v.slt 0#32) = 0#1
  have hf : v.slt 0#32 = false := by
    simp only [BitVec.slt, BitVec.toInt_zero, decide_eq_false_iff_not, not_lt]; exact h
  rw [hf]; rfl

variable (x0 : FVec Ideal S2048x4096 .f32) (x1 : FVec Ideal S16384 .f32) (x2 x3 : IVec S16384 32)

/-- A nonnegative source is left as it is by the wrap of negative indices. -/
theorem src_wrap (e : Fin 16384) (h : 0 ≤ (x2 (ix1 e)).toInt) : val_main_v4 (F := Ideal) x2 (ix1 e) = x2 (ix1 e) := by
  rw [val_main_v4_apply, val_main_v1_apply, val_main_v0_apply, val_main_c_apply, slt_zero_of_nonneg _ h]
  rfl

/-- The clamped source of edge e, as a column of x. -/
abbrev srcCol (e : Fin 16384) : Fin 4096 := ⟨min (x2 (ix1 e)).toInt.toNat (4096 - 1), by omega⟩

/-- The product the reference adds for edge e at batch row b: x(b, clamp(source e)) · weight e. -/
theorem contrib_apply (hS : ∀ e : Fin 16384, 0 ≤ (x2 (ix1 e)).toInt) (e : Fin 16384) (b : Fin 2048) :
    val_main_v10 (F := Ideal) x0 x1 x2 (ix2 e b) = x0 (ix2 b (srcCol x2 e)) * x1 (ix1 e) := by
  have e10 : idx_main_v10 (ix2 e b) = ix2 b e :=
    funext fun a => Fin.ext (by match a with | ⟨0, _⟩ => rfl | ⟨1, _⟩ => rfl)
  have e8 : idx_main_v7 (idx_main_v8 (ix2 b e)) = ix1 e :=
    funext fun a => Fin.ext (by match a with | ⟨0, _⟩ => rfl)
  have e5 : idx_main_v5 (ixP e) = ix1 e :=
    funext fun a => Fin.ext (by match a with | ⟨0, _⟩ => rfl)
  rw [val_main_v10_apply, e10, val_main_v9_apply, val_main_v8_apply, val_main_v7_apply, e8]
  unfold val_main_v6
  rw [Cert.GatherCols.gather_cols gather_S2048x4096_S16384x1_S2048x16384_0_1_n_n_1_1_20481 rfl rfl rfl rfl rfl
    x0 (val_main_v5 (F := Ideal) x2) b e (by decide)]
  simp only [val_main_v5_apply, e5, src_wrap x2 e (hS e)]
  rfl

/-- The segment sums: entry (n, b) of the table is the sum of the products of the edges with destination n. -/
theorem node_apply (hS : ∀ e : Fin 16384, 0 ≤ (x2 (ix1 e)).toInt) (n : Fin 1024) (b : Fin 2048) :
    val_main_v13 (F := Ideal) x0 x1 x2 x3 (ix2 n b)
      = ∑ e ∈ Finset.univ.filter (fun e : Fin 16384 => (x3 (ix1 e)).toInt = (n.val : ℤ)),
          x0 (ix2 b (srcCol x2 e)) * x1 (ix1 e) := by
  have e12 : ∀ e : Fin 16384, idx_main_v12 (ixP e) = ix1 e := fun e =>
    funext fun a => Fin.ext (by match a with | ⟨0, _⟩ => rfl)
  unfold val_main_v13
  show Ideal.hostScatterAdd scatter_S1024x2048_S16384x1_S16384x2048_1_0_0_1 (val_main_v11 (F := Ideal))
    (val_main_v12 (F := Ideal) x3) (val_main_v10 (F := Ideal) x0 x1 x2) (ix2 n b) = _
  rw [Cert.Segment.hostScatterAdd_rows scatter_S1024x2048_S16384x1_S16384x2048_1_0_0_1 rfl rfl rfl rfl,
    val_main_v11_apply, val_main_cst_apply]
  show Ideal.ofBits .f32 0x00000000#32 + _ = _
  rw [Ideal.ofBits_zero_f32, zero_add]
  refine Finset.sum_congr ?_ (fun e _ => contrib_apply x0 x1 x2 hS e b)
  ext e
  simp only [Finset.mem_filter, Finset.mem_univ, true_and]
  rw [val_main_v12_apply, e12]

/-- THE REFERENCE AT (b, n). -/
theorem ref_apply (hS : ∀ e : Fin 16384, 0 ≤ (x2 (ix1 e)).toInt) (b : Fin 2048) (n : Fin 1024) :
    val_main_v21 (F := Ideal) x0 x1 x2 x3 (ix2 b n)
      = Ideal.logistic (Ideal.tanh (∑ e ∈ Finset.univ.filter (fun e : Fin 16384 => (x3 (ix1 e)).toInt = (n.val : ℤ)),
          x0 (ix2 b (srcCol x2 e)) * x1 (ix1 e))) := by
  have e14 : idx_main_v14 (ix2 b n) = ix2 n b :=
    funext fun a => Fin.ext (by match a with | ⟨0, _⟩ => rfl | ⟨1, _⟩ => rfl)
  rw [val_main_v21_apply, val_main_v20_apply, val_main_cst_2_apply, val_main_v19_apply, val_main_v18_apply,
    val_main_cst_1_apply, val_main_v17_apply, val_main_v16_apply, val_main_v15_apply, val_main_v14_apply, e14,
    node_apply x0 x1 x2 x3 hS n b]
  simp only [Ideal.hostDivf_def, Ideal.hostUnary_exp_def, Ideal.hostNegf_def, Ideal.negf_def, Ideal.hostUnary_tanh_def,
    Ideal.addf_def, Ideal.ofBits_def, one_f32]
  rfl

end Cert.ReferenceIdeal.RefValue

end
-- ==== Proof.PreFacts.lean ====
import proofs.«418522_j57595511439648_3_alg».proof.Pre_finite_inputs
import Idealize.ShloMosaic.PureOps.Ideal
import Idealize.ShloMosaic.Lib.ValueIdx
import Idealize.ShloMosaic.Lib.ReduceAll
import Idealize.ShloMosaic.Lib.StableHlo.Predicate

/-!
# What the precondition says of the inputs

The precondition is the conjunction of six tests, each an "all" over an array: every entry of x and of the weights
has absolute value below +∞, and every entry of the two index arrays is, read as a signed integer, at least 0 and
below the extent of the axis it indexes (4096 for the sources, 1024 for the destinations). So where it holds,
every float entry is a real number and every index is in range.
-/

noncomputable section

namespace Cert.PreFacts

open Idealize.ShloMosaic Idealize.ShloMosaic.ValueIdx

/-- An extended real whose absolute value max a (-a) is below +∞ is neither infinity: it is a real number. -/
private theorem real_of_abs_lt_top (a : EReal) (h : max a (-a) < ⊤) : ∃ r : ℝ, a = (r : EReal) := by
  induction a using EReal.rec with
  | bot => simp at h
  | coe r => exact ⟨r, rfl⟩
  | top => simp at h

/-- The float test at one entry: |a| < +∞, the bound being the pattern 0x7F800000 of +∞, makes a real. -/
private theorem real_of_test (a : Ideal .f32)
    (h : FloatOps.cmpf (F := Ideal) .olt (FloatOps.hostAbsf a) (FloatOps.ofBits .f32 0x7F800000#32) = 1#1) :
    ∃ r : ℝ, a = (r : EReal) := by
  have ht : Ideal.ofBits .f32 0x7F800000#32 = (⊤ : EReal) := by simp [Ideal.ofBits, Ideal.ieee]
  change Ideal.cmp .olt (max a (-a)) (Ideal.ofBits .f32 0x7F800000#32) = 1#1 at h
  rw [ht] at h
  simp only [Ideal.cmp, StableHlo.Predicate.ofBool_eq_one_iff, decide_eq_true_eq] at h
  exact real_of_abs_lt_top a h

/-- The signed test a ≥ b at one entry, read as integers. -/
private theorem le_of_sge (a b : BitVec 32) (h : IntOp.cmpi .sge a b = 1#1) : b.toInt ≤ a.toInt := by
  simpa only [IntOp.cmpi, StableHlo.Predicate.ofBool_eq_one_iff, BitVec.sle, decide_eq_true_eq] using h

/-- The signed test a < b at one entry, read as integers. -/
private theorem lt_of_slt (a b : BitVec 32) (h : IntOp.cmpi .slt a b = 1#1) : a.toInt < b.toInt := by
  simpa only [IntOp.cmpi, StableHlo.Predicate.ofBool_eq_one_iff, BitVec.slt, decide_eq_true_eq] using h

/-- Under the precondition: x and the weights are real everywhere, the sources are in [0, 4096) and the
    destinations in [0, 1024). -/
theorem of_pre [Cert.Pre_finite_inputs.Facts]
    (x : FVec Ideal Cert.Pre_finite_inputs.S2048x4096 .f32) (w : FVec Ideal Cert.Pre_finite_inputs.S16384 .f32)
    (src dst : IVec Cert.Pre_finite_inputs.S16384 32)
    (h : Cert.Pre_finite_inputs.fn (F := Ideal) x w src dst = (fun _ => 1#1)) :
    (∀ i, ∃ r : ℝ, x i = (r : EReal)) ∧ (∀ i, ∃ r : ℝ, w i = (r : EReal))
      ∧ (∀ i, 0 ≤ (src i).toInt ∧ (src i).toInt < 4096) ∧ (∀ i, 0 ≤ (dst i).toInt ∧ (dst i).toInt < 1024) := by
  -- the one entry of the result, with the chain of lets opened: a conjunction of six "all"s
  have h0 := congrFun h ValueIdx.ix0
  dsimp only [Cert.Pre_finite_inputs.fn, Cert.Pre_finite_inputs.fn_part1, andi] at h0
  obtain ⟨h1, hd2⟩ := IntOp.andi_eq_one.1 h0
  obtain ⟨h2, hd1⟩ := IntOp.andi_eq_one.1 h1
  obtain ⟨h3, hs2⟩ := IntOp.andi_eq_one.1 h2
  obtain ⟨h4, hs1⟩ := IntOp.andi_eq_one.1 h3
  obtain ⟨hx, hw⟩ := IntOp.andi_eq_one.1 h4
  clear h0 h1 h2 h3 h4
  -- the result has one index, so each "all" gives its test at every entry
  haveI : Subsingleton Cert.Pre_finite_inputs.S_.Idx := ⟨fun a b => funext fun d => d.elim0⟩
  have ex := Host.reduce_andi_all _ _ _ _ _ hx
  have ew := Host.reduce_andi_all _ _ _ _ _ hw
  have es1 := Host.reduce_andi_all _ _ _ _ _ hs1
  have es2 := Host.reduce_andi_all _ _ _ _ _ hs2
  have ed1 := Host.reduce_andi_all _ _ _ _ _ hd1
  have ed2 := Host.reduce_andi_all _ _ _ _ _ hd2
  -- a test at an entry compares it with the broadcast scalar, which is that scalar at every entry
  refine ⟨fun i => real_of_test (x i) (ex i), fun i => real_of_test (w i) (ew i), fun i => ⟨?_, ?_⟩, fun i => ⟨?_, ?_⟩⟩
  · exact le_of_sge (src i) 0#32 (es1 i)
  · exact lt_of_slt (src i) 4096#32 (es2 i)
  · exact le_of_sge (dst i) 0#32 (ed1 i)
  · exact lt_of_slt (dst i) 1024#32 (ed2 i)

end Cert.PreFacts

end
-- ==== Proof.Bridge.lean ====
import proofs.«418522_j57595511439648_3_alg».proof.Proof.KernelTable
import proofs.«418522_j57595511439648_3_alg».proof.Proof.RefValue
import proofs.«418522_j57595511439648_3_alg».proof.Proof.EdgeSum
import proofs.«418522_j57595511439648_3_alg».proof.Proof.PreFacts

/-!
# The kernel's result is the reference's

At (b, n) the kernel computes logistic(tanh(∑ₖ x(b, k) · W(k, n))) with W(k, n) the total weight of the edges from k to
n, and the reference logistic(tanh(∑ over the edges e with destination n of x(b, source e) · weight e)). For real x and
weights the product distributes over W's inner sum, and regrouping the double sum edge by edge gives the reference's
sum. Both need the indices in range: a source in [0, 4096) is its own clamped column, and it is then source e = k as
integers exactly when the clamped column is k.
-/

noncomputable section

open scoped BigOperators

namespace Cert.Bridge

open Idealize.ShloMosaic Idealize.ShloMosaic.TcCoe Idealize.ShloMosaic.ValueIdx
open Idealize.SL Idealize.SL.Sem
open Cert.KernelIdeal (nD τ sig main_arg0 main_arg1 main_arg2 main_arg3)

/-- For a source in range, "the source is k" and "the clamped column is k" say the same. -/
theorem srcCol_eq_iff (X2 : IVec Cert.ReferenceIdeal.S16384 32) (e : Fin 16384) (k : Fin 4096)
    (h : 0 ≤ (X2 (ix1 e)).toInt ∧ (X2 (ix1 e)).toInt < 4096) :
    (X2 (ix1 e)).toInt = (k.val : ℤ) ↔ Cert.ReferenceIdeal.RefValue.srcCol X2 e = k := by
  have hk := k.isLt
  constructor
  · intro hk'
    apply Fin.ext
    show min (X2 (ix1 e)).toInt.toNat (4096 - 1) = k.val
    omega
  · intro hk'
    have hv : min (X2 (ix1 e)).toInt.toNat (4096 - 1) = k.val := congrArg Fin.val hk'
    omega

/-- THE LAW, over arrays of the literal types: for real x and weights and indices in range, the kernel's function of x
    and of the table built from the edges is the reference's last stage. -/
theorem G_table_eq_ref (x0 : FVec Ideal Cert.ReferenceIdeal.S2048x4096 .f32) (x1 : FVec Ideal Cert.ReferenceIdeal.S16384 .f32)
    (x2 x3 : IVec Cert.ReferenceIdeal.S16384 32)
    (hx : ∀ i, ∃ r : ℝ, x0 i = (r : EReal)) (hw : ∀ i, ∃ r : ℝ, x1 i = (r : EReal))
    (hS : ∀ i, 0 ≤ (x2 i).toInt ∧ (x2 i).toInt < 4096) (hD : ∀ i, 0 ≤ (x3 i).toInt ∧ (x3 i).toInt < 1024) :
    Cert.KernelIdeal.KValue.G x0 (Cert.KernelIdeal.Table.table x1 x2 x3)
      = Cert.ReferenceIdeal.Read.val_main_v21 (F := Ideal) x0 x1 x2 x3 := by
  funext i
  obtain ⟨b, n, rfl⟩ : ∃ (b : Fin 2048) (n : Fin 1024), i = ix2 b n := ⟨i 0, i 1, eq_ix2 i⟩
  rw [Cert.ReferenceIdeal.RefValue.ref_apply x0 x1 x2 x3 (fun e => (hS (ix1 e)).1) b n]
  show Ideal.logistic (Ideal.tanh (∑ k : Fin 4096, x0 (ix2 b k) * Cert.KernelIdeal.Table.table x1 x2 x3 (ix2 k n))) = _
  refine congrArg (fun s => Ideal.logistic (Ideal.tanh s)) ?_
  have hW : ∀ k : Fin 4096, Cert.KernelIdeal.Table.table x1 x2 x3 (ix2 k n)
      = ∑ e ∈ Finset.univ.filter (fun e : Fin 16384 =>
          Cert.ReferenceIdeal.RefValue.srcCol x2 e = k ∧ (x3 (ix1 e)).toInt = (n.val : ℤ)), x1 (ix1 e) := by
    intro k
    rw [Cert.KernelIdeal.Table.table_apply x1 x2 x3 (fun e => (hS (ix1 e)).1) (fun e => (hD (ix1 e)).1) k n]
    refine Finset.sum_congr ?_ (fun _ _ => rfl)
    ext e
    simp only [Finset.mem_filter, Finset.mem_univ, true_and]
    rw [srcCol_eq_iff x2 e k (hS (ix1 e))]
  simp only [hW]
  exact Cert.EdgeSum.sum_mul_table (fun k : Fin 4096 => x0 (ix2 b k)) (fun e : Fin 16384 => x1 (ix1 e))
    (Cert.ReferenceIdeal.RefValue.srcCol x2) (fun e => (x3 (ix1 e)).toInt = (n.val : ℤ))
    (fun k => hx (ix2 b k)) (fun e => hw (ix1 e))

variable [Cert.Pre_finite_inputs.Facts]
variable (m : (ℓ : Loc nD τ sig) → Buf (Elt Ideal) ℓ)

/-- THE TWO RESULTS ARE ONE FUNCTION of the launch contents, where the precondition holds. -/
theorem kernel_eq_ref (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) = (fun _ => 1#1)) :
    Cert.KernelIdeal.KValue.G (Cert.KernelIdeal.KValue.xarr m c) (Cert.KernelIdeal.KValue.warr m c)
      = Cert.ReferenceIdeal.Read.val_main_v21 (F := Ideal) (m ((c : Thread nD τ).loc main_arg0))
          (m ((c : Thread nD τ).loc main_arg1)) (m ((c : Thread nD τ).loc main_arg2)) (m ((c : Thread nD τ).loc main_arg3)) := by
  obtain ⟨hx, hw, hS, hD⟩ := Cert.PreFacts.of_pre _ _ _ _ hpre
  rw [Cert.KernelIdeal.Table.xarr_eq, Cert.KernelIdeal.Table.warr_eq]
  exact G_table_eq_ref _ _ _ _ hx hw hS hD

end Cert.Bridge

end
-- ==== Proof.lean ====
/-
  The kernel computes x @ W followed by tanh and the logistic function, W a [4096 × 1024] table into which every edge e
  adds its weight at (source e, destination e); the reference gathers the column of x at each edge's source, multiplies it
  by the edge's weight, adds the products of the edges with destination n into output node n, and applies tanh and
  1 / (1 + exp(−·)). Over the extended reals both are

      out(b, n) = logistic(tanh(∑ over the edges e with destination n of x(b, source e) · weight e)),

  provided x and the weights are real (the product x(b, k) · W(k, n) distributes over W's inner sum only then) and every
  source is in [0, 4096) and every destination in [0, 1024): outside those ranges the reference itself indexes x and its
  segment table out of range (a gather clamps, a scatter drops, and only one of the two programs wraps a negative
  destination), so the precondition carries these index ranges beside the finiteness of the float inputs.

  The frames of the two kernel programs and the reference's run are generated; the kernel's value is read off its frame
  run point by point (four accumulating points per grid row, the last one writing the activated block), the reference's
  off its run stage by stage; the two are joined by the regrouping law of a weighted sum over edges.
-/
import proofs.«418522_j57595511439648_3_alg».proof.Defs
import proofs.«418522_j57595511439648_3_alg».proof.Proof.Gen.Kernel
import proofs.«418522_j57595511439648_3_alg».proof.Proof.Gen.Kernel.Skeleton
import proofs.«418522_j57595511439648_3_alg».proof.Proof.Gen.Kernel.Launch
import proofs.«418522_j57595511439648_3_alg».proof.Proof.Gen.Kernel.Points
import proofs.«418522_j57595511439648_3_alg».proof.Proof.Gen.Kernel.Frame
import proofs.«418522_j57595511439648_3_alg».proof.Proof.Gen.KernelIdeal
import proofs.«418522_j57595511439648_3_alg».proof.Proof.Gen.KernelIdeal.Skeleton
import proofs.«418522_j57595511439648_3_alg».proof.Proof.Gen.KernelIdeal.Launch
import proofs.«418522_j57595511439648_3_alg».proof.Proof.Gen.KernelIdeal.Points
import proofs.«418522_j57595511439648_3_alg».proof.Proof.Gen.KernelIdeal.Frame
import proofs.«418522_j57595511439648_3_alg».proof.Proof.Gen.KernelIdeal.Value
import proofs.«418522_j57595511439648_3_alg».proof.Proof.Gen.ReferenceIdeal
import proofs.«418522_j57595511439648_3_alg».proof.Proof.Gen.ReferenceIdeal.Run
import proofs.«418522_j57595511439648_3_alg».proof.Proof.Gen.ReferenceIdeal.Read
import proofs.«418522_j57595511439648_3_alg».proof.Proof.Gen.Pre_finite_inputs
import proofs.«418522_j57595511439648_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- From memories agreeing on the arguments, the kernel's result array ends at G of x and the table W (its frame run,
    read point by point) and the reference's at its last stage of the same arguments (its run), and under the
    precondition the two are one function. -/
theorem algebraic : Cert.algebraic_KernelIdeal_ReferenceIdeal := by
  intro m ρ m' ρ' hpre hagree
  refine ⟨fun c => Cert.KernelIdeal.KValue.G (Cert.KernelIdeal.KValue.xarr m c) (Cert.KernelIdeal.KValue.warr m c), ?_, ?_⟩
  · exact (θ_run Cert.KernelIdeal.defs _ _).mono
      (fun r h c => ⟨(h c).1.trans (Cert.KernelIdeal.KValue.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, (hagree c).1, (hagree c).2.1, (hagree c).2.2.1, (hagree c).2.2.2]
    exact (Cert.Bridge.kernel_eq_ref m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
